-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2 : Shape := ⟨3, ![4, 2048, 2]⟩
abbrev S4x2048x2x64 : Shape := ⟨4, ![4, 2048, 2, 64]⟩
abbrev S4x2048x128 : Shape := ⟨3, ![4, 2048, 128]⟩
abbrev S1024x64x128 : Shape := ⟨3, ![1024, 64, 128]⟩
abbrev S_ : Shape := ⟨0, ![]⟩

class Facts : Prop where
  bcast_S_S4x2048x2x64 : S_.BroadcastsInDim S4x2048x2x64 (![] : Fin 0 → Fin S4x2048x2x64.rank)
  reducesTo_S4x2048x2x64_S_d0_1_2_3 : S4x2048x2x64.ReducesTo [0, 1, 2, 3] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S1024x64x128 : S_.BroadcastsInDim S1024x64x128 (![] : Fin 0 → Fin S1024x64x128.rank)
  reducesTo_S1024x64x128_S_d0_1_2 : S1024x64x128.ReducesTo [0, 1, 2] S_
  bcast_S_S4x2048x2 : S_.BroadcastsInDim S4x2048x2 (![] : Fin 0 → Fin S4x2048x2.rank)
  reducesTo_S4x2048x2_S_d0_1_2 : S4x2048x2.ReducesTo [0, 1, 2] S_

variable [Facts]

def fn_part1 {F : FTy → Type} [FloatOps F] (main_arg0 : IVec S4x2048x2 32) (main_v13 : IVec S_ 1) (main_v16 : IVec S1024x64x128 1) : IVec S_ 1 :=
  let main_c_5 : IVec S_ 1 := constantI S_ 1 1#1
  let main_v17 : IVec S_ 1 := (fun x v => Host.reduce IntOp.andi x v reducesTo_S1024x64x128_S_d0_1_2 h_S_) main_v16 main_c_5
  let main_v18 : IVec S_ 1 := andi main_v13 main_v17
  let main_c_6 : IVec S_ 32 := constantI S_ 32 0#32
  let main_v19 : IVec S4x2048x2 32 := broadcastInDim S4x2048x2 ![] bcast_S_S4x2048x2 main_c_6
  let main_v20 : IVec S4x2048x2 1 := cmpi .sge main_arg0 main_v19
  let main_c_7 : IVec S_ 1 := constantI S_ 1 1#1
  let main_v21 : IVec S_ 1 := (fun x v => Host.reduce IntOp.andi x v reducesTo_S4x2048x2_S_d0_1_2 h_S_) main_v20 main_c_7
  let main_v22 : IVec S_ 1 := andi main_v18 main_v21
  let main_c_8 : IVec S_ 32 := constantI S_ 32 1024#32
  let main_v23 : IVec S4x2048x2 32 := broadcastInDim S4x2048x2 ![] bcast_S_S4x2048x2 main_c_8
  let main_v24 : IVec S4x2048x2 1 := cmpi .slt main_arg0 main_v23
  let main_c_9 : IVec S_ 1 := constantI S_ 1 1#1
  let main_v25 : IVec S_ 1 := (fun x v => Host.reduce IntOp.andi x v reducesTo_S4x2048x2_S_d0_1_2 h_S_) main_v24 main_c_9
  let main_v26 : IVec S_ 1 := andi main_v22 main_v25
  main_v26

def fn {F : FTy → Type} [FloatOps F] (main_arg0 : IVec S4x2048x2 32) (main_arg1 : FVec F S4x2048x2x64 .f32) (main_arg2 : FVec F S4x2048x128 .f32) (main_arg3 : FVec F S4x2048x128 .f32) (main_arg4 : FVec F S1024x64x128 .f32) : IVec S_ 1 :=
  let main_v0 : FVec F S4x2048x2x64 .f32 := Host.absf main_arg1
  let main_cst : FVec F S_ .f32 := constant S_ .f32 0x7F800000#32
  let main_v1 : FVec F S4x2048x2x64 .f32 := broadcastInDim S4x2048x2x64 ![] bcast_S_S4x2048x2x64 main_cst
  let main_v2 : IVec S4x2048x2x64 1 := cmpf .olt main_v0 main_v1
  let main_c : IVec S_ 1 := constantI S_ 1 1#1
  let main_v3 : IVec S_ 1 := (fun x v => Host.reduce IntOp.andi x v reducesTo_S4x2048x2x64_S_d0_1_2_3 h_S_) main_v2 main_c
  let main_v4 : FVec F S4x2048x128 .f32 := Host.absf main_arg2
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x2048x128 .f32 := Host.absf main_arg3
  let main_cst_2 : FVec F S_ .f32 := constant S_ .f32 0x7F800000#32
  let main_v10 : FVec F S4x2048x128 .f32 := broadcastInDim S4x2048x128 ![] bcast_S_S4x2048x128 main_cst_2
  let main_v11 : IVec S4x2048x128 1 := cmpf .olt main_v9 main_v10
  let main_c_3 : IVec S_ 1 := constantI S_ 1 1#1
  let main_v12 : IVec S_ 1 := (fun x v => Host.reduce IntOp.andi x v reducesTo_S4x2048x128_S_d0_1_2 h_S_) main_v11 main_c_3
  let main_v13 : IVec S_ 1 := andi main_v8 main_v12
  let main_v14 : FVec F S1024x64x128 .f32 := Host.absf main_arg4
  let main_cst_4 : FVec F S_ .f32 := constant S_ .f32 0x7F800000#32
  let main_v15 : FVec F S1024x64x128 .f32 := broadcastInDim S1024x64x128 ![] bcast_S_S1024x64x128 main_cst_4
  let main_v16 : IVec S1024x64x128 1 := cmpf .olt main_v14 main_v15
  fn_part1 (F := F) main_arg0 main_v13 main_v16
-- ==== Kernel.lean ====
abbrev S4x2048x2 : Shape := ⟨3, ![4, 2048, 2]⟩
abbrev S4x2048x2x64 : Shape := ⟨4, ![4, 2048, 2, 64]⟩
abbrev S4x2048x128 : Shape := ⟨3, ![4, 2048, 128]⟩
abbrev S1024x64x128 : Shape := ⟨3, ![1024, 64, 128]⟩
abbrev S8192x2 : Shape := ⟨2, ![8192, 2]⟩
abbrev S2x8192 : Shape := ⟨2, ![2, 8192]⟩
abbrev S_ : Shape := ⟨0, ![]⟩
abbrev S8192x128 : Shape := ⟨2, ![8192, 128]⟩
abbrev S2x1024x128 : Shape := ⟨3, ![2, 1024, 128]⟩
abbrev S2x1024 : Shape := ⟨2, ![2, 1024]⟩
abbrev S1024x128 : Shape := ⟨2, ![1024, 128]⟩
abbrev S1x1024x128 : Shape := ⟨3, ![1, 1024, 128]⟩
abbrev S1024x1024 : Shape := ⟨2, ![1024, 1024]⟩
abbrev S1x1024 : Shape := ⟨2, ![1, 1024]⟩
abbrev S128x64x128 : Shape := ⟨3, ![128, 64, 128]⟩
abbrev S128x128 : Shape := ⟨2, ![128, 128]⟩

abbrev nBuf : Space → Nat
  | .hbm => 23
  | .vmem => 19
  | .smem => 0
  | _ => 0

abbrev bufTy : (tb : Table) → Fin (tcTables nBuf tb) → BufTy
  | .hbm, ⟨0, _⟩ => ⟨S4x2048x2, .i32⟩
  | .hbm, ⟨1, _⟩ => ⟨S4x2048x2x64, .f32⟩
  | .hbm, ⟨2, _⟩ => ⟨S4x2048x128, .f32⟩
  | .hbm, ⟨3, _⟩ => ⟨S4x2048x128, .f32⟩
  | .hbm, ⟨4, _⟩ => ⟨S1024x64x128, .f32⟩
  | .hbm, ⟨5, _⟩ => ⟨S8192x2, .i32⟩
  | .hbm, ⟨6, _⟩ => ⟨S2x8192, .i32⟩
  | .hbm, ⟨7, _⟩ => ⟨S_, .f32⟩
  | .hbm, ⟨8, _⟩ => ⟨S4x2048x2, .f32⟩
  | .hbm, ⟨9, _⟩ => ⟨S_, .f32⟩
  | .hbm, ⟨10, _⟩ => ⟨S4x2048x2, .f32⟩
  | .hbm, ⟨11, _⟩ => ⟨S4x2048x2, .f32⟩
  | .hbm, ⟨12, _⟩ => ⟨S8192x2, .f32⟩
  | .hbm, ⟨13, _⟩ => ⟨S2x8192, .f32⟩
  | .hbm, ⟨14, _⟩ => ⟨S8192x128, .f32⟩
  | .hbm, ⟨15, _⟩ => ⟨S8192x128, .f32⟩
  | .hbm, ⟨16, _⟩ => ⟨S2x1024x128, .f32⟩
  | .hbm, ⟨17, _⟩ => ⟨S_, .f32⟩
  | .hbm, ⟨18, _⟩ => ⟨S1024x128, .f32⟩
  | .hbm, ⟨19, _⟩ => ⟨S1024x128, .f32⟩
  | .hbm, ⟨20, _⟩ => ⟨S1024x128, .f32⟩
  | .hbm, ⟨21, _⟩ => ⟨S8192x128, .f32⟩
  | .hbm, ⟨22, _⟩ => ⟨S4x2048x128, .f32⟩
  | .local _ .vmem, ⟨0, _⟩ => ⟨S2x1024, .i32⟩
  | .local _ .vmem, ⟨1, _⟩ => ⟨S2x1024, .i32⟩
  | .local _ .vmem, ⟨2, _⟩ => ⟨S2x1024, .f32⟩
  | .local _ .vmem, ⟨3, _⟩ => ⟨S2x1024, .f32⟩
  | .local _ .vmem, ⟨4, _⟩ => ⟨S1024x128, .f32⟩
  | .local _ .vmem, ⟨5, _⟩ => ⟨S1024x128, .f32⟩
  | .local _ .vmem, ⟨6, _⟩ => ⟨S1x1024x128, .f32⟩
  | .local _ .vmem, ⟨7, _⟩ => ⟨S1x1024x128, .f32⟩
  | .local _ .vmem, ⟨8, _⟩ => ⟨S128x64x128, .f32⟩
  | .local _ .vmem, ⟨9, _⟩ => ⟨S128x64x128, .f32⟩
  | .local _ .vmem, ⟨10, _⟩ => ⟨S128x128, .f32⟩
  | .local _ .vmem, ⟨11, _⟩ => ⟨S128x128, .f32⟩
  | .local _ .vmem, ⟨12, _⟩ => ⟨S2x1024, .i32⟩
  | .local _ .vmem, ⟨13, _⟩ => ⟨S2x1024, .i32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S4x2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x2_S8192x2 : S4x2048x2.ShapeCasts S8192x2
  transposes_S8192x2_S2x8192_1_0 : S8192x2.Transposes [1, 0] S2x8192
  reducesTo_S4x2048x2x64_S4x2048x2_d3 : S4x2048x2x64.ReducesTo [3] S4x2048x2
  h_S_ : 0 < S_.numel
  bcast_S_S4x2048x2 : S_.BroadcastsInDim S4x2048x2 (![] : Fin 0 → Fin S4x2048x2.rank)
  shapeCasts_S4x2048x128_S8192x128 : S4x2048x128.ShapeCasts S8192x128
  inb_S1x1024x128_S1x1024x128_0_0_0 : ∀ a, (![0, 0, 0] : Fin 3 → Nat) a + S1x1024x128.size a ≤ S1x1024x128.size a
  h_S1x1024x128 : 0 < S1x1024x128.numel
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x1024_d0_w32 : S1024x1024.Iotas .tc 32 [0]
  slices_S2x1024_o0_0_S1x1024 : S2x1024.Slices ![0, 0] S1x1024
  broadcasts_S1x1024_S1024x1024 : S1x1024.Broadcasts S1024x1024
  shapeCasts_S1x1024_S1x1024 : S1x1024.ShapeCasts S1x1024
  slices_S2x1024_o1_0_S1x1024 : S2x1024.Slices ![1, 0] S1x1024
  bitsLt_bf16_f32 : FTy.bits .bf16 < FTy.bits .f32
  shapeCasts_S1x1024x128_S1x1024x128 : S1x1024x128.ShapeCasts S1x1024x128
  shapeCasts_S1024x128_S1x1024x128 : S1024x128.ShapeCasts S1x1024x128
  reducesTo_S2x1024x128_S1024x128_d0 : S2x1024x128.ReducesTo [0] S1024x128
  inb_S128x64x128_S128x64x128_0_0_0 : ∀ a, (![0, 0, 0] : Fin 3 → Nat) a + S128x64x128.size a ≤ S128x64x128.size a
  h_S128x64x128 : 0 < S128x64x128.numel
  reduces_S128x64x128_S128x128 : S128x64x128.Reduces [1] S128x128
  inb_S128x128_S128x128_0_0 : ∀ a, (![0, 0] : Fin 2 → Nat) a + S128x128.size a ≤ S128x128.size a
  h_S128x128 : 0 < S128x128.numel
  natLt_1_32 : 1 < 32
  shapeCasts_S8192x128_S4x2048x128 : S8192x128.ShapeCasts S4x2048x128
  dot_S1024x1024_S1024x128_S1024x128_1_0_0_1_n_n_wf : DotDims.WF S1024x1024 S1024x128 S1024x128 [1] [0] [0] [1] [] []
  dot_S1024x1024_S1024x128_S1024x128_0_0_1_1_n_n_wf : DotDims.WF S1024x1024 S1024x128 S1024x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024.size a ≤ S2x8192.size a
  hwx0_0 : ∀ i : grid0.Coords, EltTy.bits .i32 = 32 ∨ (Rect.block (s := S2x8192) S2x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024.size a ≤ S2x8192.size a
  hwx0_1 : ∀ i : grid0.Coords, EltTy.bits .f32 = 32 ∨ (Rect.block (s := S2x8192) S2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x1024x128.size a
  hwx0_3 : ∀ i : grid0.Coords, EltTy.bits .f32 = 32 ∨ (Rect.block (s := S2x1024x128) S1x1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x64x128.size a ≤ S1024x64x128.size a
  hwx1_0 : ∀ i : grid1.Coords, EltTy.bits .f32 = 32 ∨ (Rect.block (s := S1024x64x128) S128x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S1024x128.size a
  hwx1_1 : ∀ i : grid1.Coords, EltTy.bits .f32 = 32 ∨ (Rect.block (s := S1024x128) S128x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x1024.size a ≤ S2x8192.size a
  hwx2_0 : ∀ i : grid2.Coords, EltTy.bits .i32 = 32 ∨ (Rect.block (s := S2x8192) S2x1024.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.ofSpec (Memref.whole main_v1) S2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S128x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v1) S2x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1024x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x2 : Shape := ⟨3, ![4, 2048, 2]⟩
abbrev S4x2048x2x64 : Shape := ⟨4, ![4, 2048, 2, 64]⟩
abbrev S4x2048x128 : Shape := ⟨3, ![4, 2048, 128]⟩
abbrev S1024x64x128 : Shape := ⟨3, ![1024, 64, 128]⟩
abbrev S4x2048x2x64x1 : Shape := ⟨5, ![4, 2048, 2, 64, 1]⟩
abbrev S4x2048x1x1x128 : Shape := ⟨5, ![4, 2048, 1, 1, 128]⟩
abbrev S4x2048x2x64x128 : Shape := ⟨5, ![4, 2048, 2, 64, 128]⟩
abbrev S16384 : Shape := ⟨1, ![16384]⟩
abbrev S16384x64x128 : Shape := ⟨3, ![16384, 64, 128]⟩
abbrev S_ : Shape := ⟨0, ![]⟩
abbrev S16384x1 : Shape := ⟨2, ![16384, 1]⟩
abbrev S1024x128 : Shape := ⟨2, ![1024, 128]⟩
abbrev S4x2048x2x1 : Shape := ⟨4, ![4, 2048, 2, 1]⟩
abbrev S4x2048x2x128 : Shape := ⟨4, ![4, 2048, 2, 128]⟩
abbrev S4x2048x1x128 : Shape := ⟨4, ![4, 2048, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2, .i32⟩
  | .hbm, ⟨1, _⟩ => ⟨S4x2048x2x64, .f32⟩
  | .hbm, ⟨2, _⟩ => ⟨S4x2048x128, .f32⟩
  | .hbm, ⟨3, _⟩ => ⟨S4x2048x128, .f32⟩
  | .hbm, ⟨4, _⟩ => ⟨S1024x64x128, .f32⟩
  | .hbm, ⟨5, _⟩ => ⟨S4x2048x2x64x1, .f32⟩
  | .hbm, ⟨6, _⟩ => ⟨S4x2048x1x1x128, .f32⟩
  | .hbm, ⟨7, _⟩ => ⟨S4x2048x2x64x128, .f32⟩
  | .hbm, ⟨8, _⟩ => ⟨S4x2048x2x64x128, .f32⟩
  | .hbm, ⟨9, _⟩ => ⟨S4x2048x2x64x128, .f32⟩
  | .hbm, ⟨10, _⟩ => ⟨S16384, .i32⟩
  | .hbm, ⟨11, _⟩ => ⟨S16384x64x128, .f32⟩
  | .hbm, ⟨12, _⟩ => ⟨S_, .f32⟩
  | .hbm, ⟨13, _⟩ => ⟨S1024x64x128, .f32⟩
  | .hbm, ⟨14, _⟩ => ⟨S16384x1, .i32⟩
  | .hbm, ⟨15, _⟩ => ⟨S1024x64x128, .f32⟩
  | .hbm, ⟨16, _⟩ => ⟨S1024x64x128, .f32⟩
  | .hbm, ⟨17, _⟩ => ⟨S_, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S_, .i32⟩
  | .hbm, ⟨23, _⟩ => ⟨S4x2048x2, .i32⟩
  | .hbm, ⟨24, _⟩ => ⟨S4x2048x2, .i1⟩
  | .hbm, ⟨25, _⟩ => ⟨S_, .i32⟩
  | .hbm, ⟨26, _⟩ => ⟨S4x2048x2, .i32⟩
  | .hbm, ⟨27, _⟩ => ⟨S4x2048x2, .i32⟩
  | .hbm, ⟨28, _⟩ => ⟨S4x2048x2, .i32⟩
  | .hbm, ⟨29, _⟩ => ⟨S4x2048x2x1, .i32⟩
  | .hbm, ⟨30, _⟩ => ⟨S4x2048x2x128, .f32⟩
  | .hbm, ⟨31, _⟩ => ⟨S4x2048x1x128, .f32⟩
  | .hbm, ⟨32, _⟩ => ⟨S4x2048x2x128, .f32⟩
  | .hbm, ⟨33, _⟩ => ⟨S4x2048x2x128, .f32⟩
  | .hbm, ⟨34, _⟩ => ⟨S_, .f32⟩
  | .hbm, ⟨35, _⟩ => ⟨S4x2048x128, .f32⟩
  | _, _ => ⟨S4x2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S4x2048x2x64_S4x2048x2x64x1_0_1_2_3 : S4x2048x2x64.BroadcastsInDim S4x2048x2x64x1 (![0, 1, 2, 3] : Fin 4 → Fin S4x2048x2x64x1.rank)
  bcast_S4x2048x128_S4x2048x1x1x128_0_1_4 : S4x2048x128.BroadcastsInDim S4x2048x1x1x128 (![0, 1, 4] : Fin 3 → Fin S4x2048x1x1x128.rank)
  bcast_S4x2048x2x64x1_S4x2048x2x64x128_0_1_2_3_4 : S4x2048x2x64x1.BroadcastsInDim S4x2048x2x64x128 (![0, 1, 2, 3, 4] : Fin 5 → Fin S4x2048x2x64x128.rank)
  bcast_S4x2048x1x1x128_S4x2048x2x64x128_0_1_2_3_4 : S4x2048x1x1x128.BroadcastsInDim S4x2048x2x64x128 (![0, 1, 2, 3, 4] : Fin 5 → Fin S4x2048x2x64x128.rank)
  shapeCasts_S4x2048x2_S16384 : S4x2048x2.ShapeCasts S16384
  shapeCasts_S4x2048x2x64x128_S16384x64x128 : S4x2048x2x64x128.ShapeCasts S16384x64x128
  bcast_S_S1024x64x128 : S_.BroadcastsInDim S1024x64x128 (![] : Fin 0 → Fin S1024x64x128.rank)
  bcast_S16384_S16384x1_0 : S16384.BroadcastsInDim S16384x1 (![0] : Fin 1 → Fin S16384x1.rank)
  reducesTo_S1024x64x128_S1024x128_d1 : S1024x64x128.ReducesTo [1] S1024x128
  h_S_ : 0 < S_.numel
  bcast_S_S1024x128 : S_.BroadcastsInDim S1024x128 (![] : Fin 0 → Fin S1024x128.rank)
  bcast_S_S4x2048x2 : S_.BroadcastsInDim S4x2048x2 (![] : Fin 0 → Fin S4x2048x2.rank)
  bcast_S4x2048x2_S4x2048x2x1_0_1_2 : S4x2048x2.BroadcastsInDim S4x2048x2x1 (![0, 1, 2] : Fin 3 → Fin S4x2048x2x1.rank)
  bcast_S4x2048x128_S4x2048x1x128_0_1_3 : S4x2048x128.BroadcastsInDim S4x2048x1x128 (![0, 1, 3] : Fin 3 → Fin S4x2048x1x128.rank)
  bcast_S4x2048x1x128_S4x2048x2x128_0_1_2_3 : S4x2048x1x128.BroadcastsInDim S4x2048x2x128 (![0, 1, 2, 3] : Fin 4 → Fin S4x2048x2x128.rank)
  reducesTo_S4x2048x2x128_S4x2048x128_d2 : S4x2048x2x128.ReducesTo [2] S4x2048x128
  scatter_S1024x64x128_S16384x1_S16384x64x128_12_0_0_1_wf : ScatterDims.WF S1024x64x128 S16384x1 S16384x64x128 [1, 2] [0] [0] 1
  gather_S1024x128_S4x2048x2x1_S4x2048x2x128_3_0_n_n_0_3_1128_wf : GatherDims.WF S1024x128 S4x2048x2x1 S4x2048x2x128 [3] [0] [] [0] [] 3 ![1, 128]

variable [Facts₀]

def scatter_S1024x64x128_S16384x1_S16384x64x128_12_0_0_1 : ScatterDims S1024x64x128 S16384x1 S16384x64x128 where
  updateWindowDims := [1, 2]
  insertedWindowDims := [0]
  scatterDimsToOperandDims := [0]
  indexVectorDim := 1
  wf := scatter_S1024x64x128_S16384x1_S16384x64x128_12_0_0_1_wf
def gather_S1024x128_S4x2048x2x1_S4x2048x2x128_3_0_n_n_0_3_1128 : GatherDims S1024x128 S4x2048x2x1 S4x2048x2x128 where
  offsetDims := [3]
  collapsedSliceDims := [0]
  operandBatchingDims := []
  startIndicesBatchingDims := []
  startIndexMap := [0]
  indexVectorDim := 3
  sliceSizes := ![1, 128]
  wf := gather_S1024x128_S4x2048x2x1_S4x2048x2x128_3_0_n_n_0_3_1128_wf

class Facts : Prop extends Facts₀ where

variable [Facts]
-- ==== Proof.Spec.lean ====
/-
  The mathematics of the certificate, over the reals, with no program in sight.

  Tokens are numbered flat, `t = 2048·b + s` (8192 of them); each token carries two partition numbers `pi t 0`,
  `pi t 1` in `[0, 1024)`, two key rows of 64 entries, one value row and one query row of 128 entries.  Both programs
  update a table of 1024 × 64 × 128 states by adding, to the states of partition `pi t k`, the outer product of key row
  `(t, k)` and the value row of `t`; average the updated states over the 64 key positions; and read the averaged table
  back at the two partitions of every token, weighting by the query row.

  The kernel never forms the outer products: it first averages each key row (`ksum`), spreads those averages over the
  partitions by equality tests (`wK`), contracts with the values block by block (`deltaK`, eight blocks of 1024 tokens,
  four per core, added in order: `accK`), adds the per-core partial tables to the averaged old states (`msK`), and reads
  back through a matrix of hit counts (`gK`, `outK`).  The reference adds the outer products partition by partition
  (`deltaR`), averages (`msR`) and reads the two rows back (`outR`).  Over the reals the two are one function:
  averaging over the key positions commutes with the sum over the tokens that hit a partition, a sum over all tokens
  splits into the eight blocks, and a count-weighted sum over the partitions picks the two rows a token names.
-/
import Mathlib.Data.Real.Basic
import Mathlib.Algebra.BigOperators.Fin
import Mathlib.Data.Fintype.BigOperators
import Mathlib.Algebra.BigOperators.Ring.Finset
import Mathlib.Algebra.BigOperators.Field
import Mathlib.Tactic.Ring
import Mathlib.Tactic.FieldSimp
import Mathlib.Tactic.Linarith

noncomputable section

namespace Cert.Spec

/-- Token `(b, s)` in flat numbering. -/
def tok (b : Fin 4) (s : Fin 2048) : Fin 8192 := ⟨2048 * b.val + s.val, by have := b.isLt; have := s.isLt; omega⟩
/-- The batch of a flat token. -/
def tb (t : Fin 8192) : Fin 4 := ⟨t.val / 2048, by have := t.isLt; omega⟩
/-- The position of a flat token inside its batch. -/
def ts (t : Fin 8192) : Fin 2048 := ⟨t.val % 2048, Nat.mod_lt _ (by decide)⟩
/-- Token `j` of block `i` of core `cc`: blocks of 1024 tokens, four consecutive blocks per core. -/
def blkTok (cc : Fin 2) (i : Fin 4) (j : Fin 1024) : Fin 8192 :=
  ⟨(4 * cc.val + i.val) * 1024 + j.val, by have := cc.isLt; have := i.isLt; have := j.isLt; omega⟩
/-- The token of flat (token, slot) pair `n = 2·t + k`. -/
def tokOf (n : Fin 16384) : Fin 8192 := ⟨n.val / 2, by have := n.isLt; omega⟩
/-- The slot of flat (token, slot) pair `n = 2·t + k`. -/
def slotOf (n : Fin 16384) : Fin 2 := ⟨n.val % 2, Nat.mod_lt _ (by decide)⟩

theorem tb_tok (b : Fin 4) (s : Fin 2048) : tb (tok b s) = b := by
  apply Fin.ext; have := s.isLt; simp only [tb, tok]; omega
theorem ts_tok (b : Fin 4) (s : Fin 2048) : ts (tok b s) = s := by
  apply Fin.ext; have := s.isLt; simp only [ts, tok]; omega
theorem tok_tb_ts (t : Fin 8192) : tok (tb t) (ts t) = t := by
  apply Fin.ext; simp only [tb, ts, tok]; omega

variable (pi : Fin 8192 → Fin 2 → Fin 1024) (kr : Fin 8192 → Fin 2 → Fin 64 → ℝ) (vr qr : Fin 8192 → Fin 128 → ℝ)
  (sr : Fin 1024 → Fin 64 → Fin 128 → ℝ)

/-! ## The kernel's arrangement -/

/-- The average of key row `(t, k)`. -/
def ksum (t : Fin 8192) (k : Fin 2) : ℝ := (∑ c : Fin 64, kr t k c) * (1 / 64)

/-- The weight token `t` gives partition `p`: the key averages of the slots that name `p`. -/
def wK (p : Fin 1024) (t : Fin 8192) : ℝ :=
  (if pi t 0 = p then ksum kr t 0 else 0) + (if pi t 1 = p then ksum kr t 1 else 0)

/-- One block's contribution to row `p` of the update, at lane `d`. -/
def deltaK (cc : Fin 2) (i : Fin 4) (p : Fin 1024) (d : Fin 128) : ℝ :=
  ∑ j : Fin 1024, wK pi kr p (blkTok cc i j) * vr (blkTok cc i j) d

/-- One core's four blocks, added in order. -/
def accK (cc : Fin 2) (p : Fin 1024) (d : Fin 128) : ℝ :=
  ((deltaK pi kr vr cc 0 p d + deltaK pi kr vr cc 1 p d) + deltaK pi kr vr cc 2 p d) + deltaK pi kr vr cc 3 p d

/-- The averaged updated states, the kernel's way: the old states' average plus the two cores' partial updates. -/
def msK (p : Fin 1024) (d : Fin 128) : ℝ :=
  (∑ c : Fin 64, sr p c d) / 64 + ∑ cc : Fin 2, accK pi kr vr cc p d

/-- How many slots of token `t` name partition `p`. -/
def gK (p : Fin 1024) (t : Fin 8192) : ℝ := (if pi t 0 = p then 1 else 0) + (if pi t 1 = p then 1 else 0)

/-- The kernel's result at token `t`, lane `d`. -/
def outK (t : Fin 8192) (d : Fin 128) : ℝ :=
  (∑ p : Fin 1024, gK pi p t * msK pi kr vr sr p d) * qr t d

/-! ## The reference's arrangement -/

/-- The update of state `(p, c, d)`: the outer products of all (token, slot) pairs that name `p`. -/
def deltaR (p : Fin 1024) (c : Fin 64) (d : Fin 128) : ℝ :=
  ∑ n : Fin 16384, if pi (tokOf n) (slotOf n) = p then kr (tokOf n) (slotOf n) c * vr (tokOf n) d else 0

/-- The averaged updated states, the reference's way. -/
def msR (p : Fin 1024) (d : Fin 128) : ℝ :=
  (∑ c : Fin 64, (sr p c d + deltaR pi kr vr p c d)) / 64

/-- The reference's result at token `t`, lane `d`. -/
def outR (t : Fin 8192) (d : Fin 128) : ℝ :=
  ∑ k : Fin 2, msR pi kr vr sr (pi t k) d * qr t d

/-! ## Two re-indexings -/

/-- The eight blocks of 1024 tokens, four per core, list every token once: `t = (4·cc + i)·1024 + j`. -/
def blkEquiv : Fin 2 × Fin 4 × Fin 1024 ≃ Fin 8192 where
  toFun x := blkTok x.1 x.2.1 x.2.2
  invFun t := (⟨t.val / 4096, by have := t.isLt; omega⟩, ⟨t.val / 1024 % 4, Nat.mod_lt _ (by decide)⟩,
    ⟨t.val % 1024, Nat.mod_lt _ (by decide)⟩)
  left_inv := by
    rintro ⟨cc, i, j⟩
    have := cc.isLt; have := i.isLt; have := j.isLt
    refine Prod.ext (Fin.ext ?_) (Prod.ext (Fin.ext ?_) (Fin.ext ?_)) <;> simp only [blkTok] <;> omega
  right_inv := by
    intro t
    apply Fin.ext
    simp only [blkTok]
    omega

/-- A sum over all tokens splits into the eight blocks. -/
theorem sum_blk (f : Fin 8192 → ℝ) :
    ∑ cc : Fin 2, ∑ i : Fin 4, ∑ j : Fin 1024, f (blkTok cc i j) = ∑ t : Fin 8192, f t := by
  rw [← Fintype.sum_equiv blkEquiv (fun x => f (blkTok x.1 x.2.1 x.2.2)) f (fun _ => rfl)]
  rw [Fintype.sum_prod_type]
  refine Finset.sum_congr rfl fun cc _ => ?_
  rw [Fintype.sum_prod_type]

/-- The (token, slot) pairs in flat numbering `n = 2·t + k`. -/
def pairEquiv : Fin 8192 × Fin 2 ≃ Fin 16384 where
  toFun x := ⟨2 * x.1.val + x.2.val, by have := x.1.isLt; have := x.2.isLt; omega⟩
  invFun n := (tokOf n, slotOf n)
  left_inv := by
    rintro ⟨t, k⟩
    have := t.isLt; have := k.isLt
    refine Prod.ext (Fin.ext ?_) (Fin.ext ?_) <;> simp only [tokOf, slotOf] <;> omega
  right_inv := by
    intro n
    apply Fin.ext
    simp only [tokOf, slotOf]
    omega

/-- A sum over the flat pairs is a sum over the tokens and their two slots. -/
theorem sum_pair (g : Fin 8192 → Fin 2 → ℝ) :
    ∑ n : Fin 16384, g (tokOf n) (slotOf n) = ∑ t : Fin 8192, ∑ k : Fin 2, g t k := by
  rw [← Fintype.sum_equiv pairEquiv (fun x => g x.1 x.2) (fun n => g (tokOf n) (slotOf n))
    (fun x => by
      have h := pairEquiv.left_inv x
      have h1 : tokOf (pairEquiv x) = x.1 := congrArg Prod.fst h
      have h2 : slotOf (pairEquiv x) = x.2 := congrArg Prod.snd h
      simp only [h1, h2])]
  rw [Fintype.sum_prod_type]

/-! ## The two tables -/

/-- The two cores' partial updates add up to one sum over all tokens. -/
theorem sum_accK (p : Fin 1024) (d : Fin 128) :
    ∑ cc : Fin 2, accK pi kr vr cc p d = ∑ t : Fin 8192, wK pi kr p t * vr t d := by
  rw [← sum_blk (fun t => wK pi kr p t * vr t d)]
  refine Finset.sum_congr rfl fun cc _ => ?_
  rw [Fin.sum_univ_four]
  rfl

/-- Averaging the reference's update over the key positions: the sum over the positions moves inside the sum over
the pairs that name `p`. -/
theorem sum_deltaR (p : Fin 1024) (d : Fin 128) :
    ∑ c : Fin 64, deltaR pi kr vr p c d
      = ∑ t : Fin 8192, ∑ k : Fin 2, if pi t k = p then (∑ c : Fin 64, kr t k c) * vr t d else 0 := by
  simp only [deltaR]
  rw [Finset.sum_comm]
  rw [← sum_pair (fun t k => if pi t k = p then (∑ c : Fin 64, kr t k c) * vr t d else 0)]
  refine Finset.sum_congr rfl fun n _ => ?_
  by_cases h : pi (tokOf n) (slotOf n) = p
  · simp only [h, if_true, Finset.sum_mul]
  · simp only [h, if_false, Finset.sum_const_zero]

/-- One token's share of the kernel's update is the average of its share of the reference's. -/
theorem wK_mul (p : Fin 1024) (t : Fin 8192) (d : Fin 128) :
    wK pi kr p t * vr t d
      = (∑ k : Fin 2, if pi t k = p then (∑ c : Fin 64, kr t k c) * vr t d else 0) / 64 := by
  rw [Fin.sum_univ_two]
  simp only [wK, ksum]
  by_cases h0 : pi t 0 = p <;> by_cases h1 : pi t 1 = p <;> simp only [h0, h1, if_true, if_false] <;> ring

/-! ## They are one function -/

theorem msK_eq_msR (p : Fin 1024) (d : Fin 128) : msK pi kr vr sr p d = msR pi kr vr sr p d := by
  simp only [msK, msR]
  rw [sum_accK, Finset.sum_add_distrib, add_div, sum_deltaR]
  congr 1
  rw [Finset.sum_div]
  exact Finset.sum_congr rfl fun t _ => wK_mul pi kr vr p t d

/-- A count-weighted sum over the partitions picks the rows the token names. -/
theorem sum_gK (m : Fin 1024 → ℝ) (t : Fin 8192) :
    ∑ p : Fin 1024, gK pi p t * m p = m (pi t 0) + m (pi t 1) := by
  simp only [gK, add_mul, ite_mul, one_mul, zero_mul]
  rw [Finset.sum_add_distrib, Finset.sum_ite_eq, Finset.sum_ite_eq]
  simp only [Finset.mem_univ, if_true]

theorem outK_eq_outR (t : Fin 8192) (d : Fin 128) : outK pi kr vr qr sr t d = outR pi kr vr qr sr t d := by
  simp only [outK, outR]
  rw [sum_gK pi (fun p => msK pi kr vr sr p d) t, Fin.sum_univ_two, msK_eq_msR, msK_eq_msR, add_mul]

end Cert.Spec

end
-- ==== Proof.KHost.lean ====
/-
  The host operations of the kernel's program, read as values at the ideal instance: what each region finds in its
  input arrays, in terms of the launch arrays, and what the last reshape returns.

  The partition numbers and the key averages reach regions 0 and 2 transposed, `[slot, token]`, tokens numbered flat
  (`t = 2048·b + s`); the values and the queries reach them as `[token, lane]`; the key average of (token, slot) is
  the sum of the 64 key entries times the literal 1/64; the table region 2 reads is region 1's averages plus the sum
  of region 0's two per-core partial tables; the result is region 2's `[token, lane]` array reshaped to
  `[batch, position, lane]`.
-/
import proofs.«430673_j89300960019113_2_alg».proof.Proof.Gen.KernelIdeal.Frame
import proofs.«430673_j89300960019113_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen Cert.Spec Idealize.ShloMosaic.StableHlo

variable (m : (ℓ : Loc nD τ sig) → Buf (Elt Ideal) ℓ) (ρ : Dev nD → PrngReg)

/-- A stretch of host operations leaves a buffer none of them writes as it was. -/
local macro "skip_host " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Region 0's entry -/

theorem V1_v1_eq (c : Dev nD) : (V1 m ρ c main_v1 : S2x8192.Idx → BitVec 32)
    = transpose S2x8192 [1, 0] (shapeCast S8192x2 (m ((c : Thread nD τ).loc main_arg0)) shapeCasts_S4x2048x2_S8192x2) transposes_S8192x2_S2x8192_1_0 := by
  show StableHlo.after hostOps0 (W0 m ρ c) (Proc.devRef .tc main_v1) = _
  after_results
  rfl

/-- The partition number of slot `k` of flat token `t`, as region 0 finds it. -/
theorem V1_v1 (c : Dev nD) (k : Fin 2) (t : Fin 8192) :
    (V1 m ρ c main_v1 : S2x8192.Idx → BitVec 32) (ix2 k t)
      = (m ((c : Thread nD τ).loc main_arg0) : S4x2048x2.Idx → BitVec 32) (ix3 (tb t) (ts t) k) := by
  rw [V1_v1_eq]
  rw [transpose_apply _ _ _ (ix2 k t) (ix2 t k) (fun b => match b with | ⟨0, _⟩ => rfl | ⟨1, _⟩ => rfl)]
  refine shapeCast_apply _ _ (ix2 t k) (ix3 (tb t) (ts t) k) ?_
  rw [Shape.rowMajor_val_three, Shape.rowMajor_val_two]
  show ((tb t).val * 2048 + (ts t).val) * 2 + k.val = t.val * 2 + k.val
  simp only [tb, ts]; omega

theorem V1_v6_eq (c : Dev nD) : (V1 m ρ c main_v6 : S2x8192.Idx → EReal)
    = transpose S2x8192 [1, 0] (shapeCast S8192x2 (mulf (Host.reduceAdd (m ((c : Thread nD τ).loc main_arg1)) (constant (F := Ideal) S_ .f32 0x00000000#32) reducesTo_S4x2048x2x64_S4x2048x2_d3 h_S_)
        (broadcastInDim S4x2048x2 ![] bcast_S_S4x2048x2 (constant (F := Ideal) S_ .f32 0x3C800000#32))) shapeCasts_S4x2048x2_S8192x2) transposes_S8192x2_S2x8192_1_0 := by
  show StableHlo.after hostOps0 (W0 m ρ c) (Proc.devRef .tc main_v6) = _
  after_results
  rfl

/-- The key average of slot `k` of flat token `t`, as region 0 finds it: the sum of the 64 key entries times the literal. -/
theorem V1_v6 (c : Dev nD) (k : Fin 2) (t : Fin 8192) :
    (V1 m ρ c main_v6 : S2x8192.Idx → EReal) (ix2 k t)
      = ((∑ cc : Fin 64, (m ((c : Thread nD τ).loc main_arg1) : S4x2048x2x64.Idx → EReal) (ix4 (tb t) (ts t) k cc)) : EReal)
          * Ideal.ofBits .f32 0x3C800000#32 := by
  rw [V1_v6_eq]
  rw [transpose_apply _ _ _ (ix2 k t) (ix2 t k) (fun b => match b with | ⟨0, _⟩ => rfl | ⟨1, _⟩ => rfl)]
  rw [shapeCast_apply _ _ (ix2 t k) (ix3 (tb t) (ts t) k) (by
    rw [Shape.rowMajor_val_three, Shape.rowMajor_val_two]
    show ((tb t).val * 2048 + (ts t).val) * 2 + k.val = t.val * 2 + k.val
    simp only [tb, ts]; omega)]
  rw [mulf_apply]
  simp only [Host.reduceAdd, Ideal.hostReduceAdd_def]
  rw [Ideal.hostReduceAdd_single reducesTo_S4x2048x2x64_S4x2048x2_d3 (by decide)]
  rw [broadcastInDim_apply _ bcast_S_S4x2048x2 _ (ix3 (tb t) (ts t) k) ix0 (fun a => a.elim0)]
  rw [constant_apply, constant_apply, Ideal.ofBits_zero_f32, zero_add]
  refine congrArg (· * _) (Finset.sum_congr rfl fun cc _ => congrArg _ (funext fun a => Fin.ext ?_))
  match a with
  | ⟨0, _⟩ => rfl
  | ⟨1, _⟩ => rfl
  | ⟨2, _⟩ => rfl
  | ⟨3, _⟩ => rfl

theorem V1_v7_eq (c : Dev nD) : (V1 m ρ c main_v7 : S8192x128.Idx → EReal)
    = shapeCast S8192x128 (m ((c : Thread nD τ).loc main_arg2)) shapeCasts_S4x2048x128_S8192x128 := by
  show StableHlo.after hostOps0 (W0 m ρ c) (Proc.devRef .tc main_v7) = _
  after_results
  rfl

/-- The value of flat token `t` at lane `d`, as region 0 finds it. -/
theorem V1_v7 (c : Dev nD) (t : Fin 8192) (d : Fin 128) :
    (V1 m ρ c main_v7 : S8192x128.Idx → EReal) (ix2 t d)
      = (m ((c : Thread nD τ).loc main_arg2) : S4x2048x128.Idx → EReal) (ix3 (tb t) (ts t) d) := by
  rw [V1_v7_eq]
  refine shapeCast_apply _ _ (ix2 t d) (ix3 (tb t) (ts t) d) ?_
  rw [Shape.rowMajor_val_three, Shape.rowMajor_val_two]
  show ((tb t).val * 2048 + (ts t).val) * 128 + d.val = t.val * 128 + d.val
  simp only [tb, ts]; omega

theorem V1_v8_eq (c : Dev nD) : (V1 m ρ c main_v8 : S8192x128.Idx → EReal)
    = shapeCast S8192x128 (m ((c : Thread nD τ).loc main_arg3)) shapeCasts_S4x2048x128_S8192x128 := by
  show StableHlo.after hostOps0 (W0 m ρ c) (Proc.devRef .tc main_v8) = _
  after_results
  rfl

/-- The query of flat token `t` at lane `d`, after the first stretch of host operations. -/
theorem V1_v8 (c : Dev nD) (t : Fin 8192) (d : Fin 128) :
    (V1 m ρ c main_v8 : S8192x128.Idx → EReal) (ix2 t d)
      = (m ((c : Thread nD τ).loc main_arg3) : S4x2048x128.Idx → EReal) (ix3 (tb t) (ts t) d) := by
  rw [V1_v8_eq]
  refine shapeCast_apply _ _ (ix2 t d) (ix3 (tb t) (ts t) d) ?_
  rw [Shape.rowMajor_val_three, Shape.rowMajor_val_two]
  show ((tb t).val * 2048 + (ts t).val) * 128 + d.val = t.val * 128 + d.val
  simp only [tb, ts]; omega

/-! ## Region 1's entry -/

/-- Region 1 finds the states as launched. -/
theorem V3_arg4 (c : Dev nD) : V3 m ρ c main_arg4 = m ((c : Thread nD τ).loc main_arg4) :=
  calc W3 m ρ c (Proc.devRef .tc main_arg4)
    _ = W2 m ρ c (Proc.devRef .tc main_arg4) := by skip_host hostOps1
    _ = W1 m ρ c (Proc.devRef .tc main_arg4) := W2_of_ne m ρ c main_arg4 (by decide)
    _ = W0 m ρ c (Proc.devRef .tc main_arg4) := by skip_host hostOps0
    _ = m ((c : Thread nD τ).loc main_arg4) := rfl

/-! ## Region 2's entry -/

/-- Region 2 finds the partition numbers as region 0 found them. -/
theorem V5_v1 (c : Dev nD) : V5 m ρ c main_v1 = V1 m ρ c main_v1 :=
  calc W5 m ρ c (Proc.devRef .tc main_v1)
    _ = W4 m ρ c (Proc.devRef .tc main_v1) := by skip_host hostOps2
    _ = W3 m ρ c (Proc.devRef .tc main_v1) := W4_of_ne m ρ c main_v1 (by decide)
    _ = W2 m ρ c (Proc.devRef .tc main_v1) := by skip_host hostOps1
    _ = V1 m ρ c main_v1 := (W2_arr m ρ c 0).trans (((dat0 (V1 m ρ) c).arrAt_in 0 rfl _).trans (A_eq0 (V1 m ρ) c 0))

/-- Region 2 finds the queries as the first stretch left them. -/
theorem V5_v8 (c : Dev nD) : V5 m ρ c main_v8 = V1 m ρ c main_v8 :=
  calc W5 m ρ c (Proc.devRef .tc main_v8)
    _ = W4 m ρ c (Proc.devRef .tc main_v8) := by skip_host hostOps2
    _ = W3 m ρ c (Proc.devRef .tc main_v8) := W4_of_ne m ρ c main_v8 (by decide)
    _ = W2 m ρ c (Proc.devRef .tc main_v8) := by skip_host hostOps1
    _ = W1 m ρ c (Proc.devRef .tc main_v8) := W2_of_ne m ρ c main_v8 (by decide)

/-- Region 0's result array (the two per-core partial tables), region 1's (the averages of the old states) and region 2's
    (the read-back), each as the region leaves it, named at their literal types. -/
abbrev R0 (c : Dev nD) : S2x1024x128.Idx → EReal := (dat0 (F := Ideal) (V1 m ρ) c).arrAt 3 cfg0.N
abbrev R1 (c : Dev nD) : S1024x128.Idx → EReal := (dat1 (F := Ideal) (V3 m ρ) c).arrAt 1 cfg1.N
abbrev R2 (c : Dev nD) : S8192x128.Idx → EReal := (dat2 (F := Ideal) (V5 m ρ) c).arrAt 3 cfg2.N

theorem W5_v12_eq (c : Dev nD) : (W5 m ρ c (Proc.devRef .tc main_v12) : S1024x128.Idx → EReal)
    = (addf (W4 m ρ c (Proc.devRef .tc main_v11) : FVec Ideal S1024x128 .f32) (W4 m ρ c (Proc.devRef .tc main_v10) : FVec Ideal S1024x128 .f32) : FVec Ideal S1024x128 .f32) := by
  show StableHlo.after hostOps2 (W4 m ρ c) (Proc.devRef .tc main_v12) = _
  after_results <;> rfl

theorem W3_v10_eq (c : Dev nD) : (W3 m ρ c (Proc.devRef .tc main_v10) : S1024x128.Idx → EReal)
    = (Host.reduceAdd (W2 m ρ c (Proc.devRef .tc main_v9) : FVec Ideal S2x1024x128 .f32) (constant (F := Ideal) S_ .f32 0x00000000#32) reducesTo_S2x1024x128_S1024x128_d0 h_S_ : FVec Ideal S1024x128 .f32) := by
  show StableHlo.after hostOps1 (W2 m ρ c) (Proc.devRef .tc main_v10) = _
  after_results <;> rfl

/-- The host's sum over the core axis of a `[2, 1024, 128]` array from zero, read at `(p, d)`. -/
theorem sum_cores (x : S2x1024x128.Idx → EReal) (p : Fin 1024) (d : Fin 128) :
    Ideal.hostReduceAdd reducesTo_S2x1024x128_S1024x128_d0 x (0 : EReal) (ix2 p d) = ∑ cc : Fin 2, x (ix3 cc p d) := by
  rw [Ideal.hostReduceAdd_single reducesTo_S2x1024x128_S1024x128_d0 (by decide), zero_add]
  refine Finset.sum_congr rfl fun cc _ => congrArg x (funext fun a => Fin.ext ?_)
  match a with
  | ⟨0, _⟩ => rfl
  | ⟨1, _⟩ => rfl
  | ⟨2, _⟩ => rfl

/-- The sum of region 0's two partial tables, as the second stretch of host operations leaves it. -/
theorem W3_v10 (c : Dev nD) (p : Fin 1024) (d : Fin 128) :
    (W3 m ρ c (Proc.devRef .tc main_v10) : S1024x128.Idx → EReal) (ix2 p d) = (∑ cc : Fin 2, R0 m ρ c (ix3 cc p d) : EReal) := by
  rw [W3_v10_eq]
  simp only [Host.reduceAdd, Ideal.hostReduceAdd_def]
  rw [constant_apply, Ideal.ofBits_zero_f32]
  rw [show (W2 m ρ c (Proc.devRef .tc main_v9) : S2x1024x128.Idx → EReal) = R0 m ρ c from W2_arr m ρ c 3]
  exact sum_cores (R0 m ρ c) p d

/-- The table region 2 reads: region 1's result plus the sum of region 0's two partial tables. -/
theorem V5_v12 (c : Dev nD) (p : Fin 1024) (d : Fin 128) :
    (V5 m ρ c main_v12 : S1024x128.Idx → EReal) (ix2 p d) = (R1 m ρ c (ix2 p d) + ∑ cc : Fin 2, R0 m ρ c (ix3 cc p d) : EReal) := by
  show (W5 m ρ c (Proc.devRef .tc main_v12) : S1024x128.Idx → EReal) (ix2 p d) = _
  rw [W5_v12_eq, addf_apply]
  rw [show (W4 m ρ c (Proc.devRef .tc main_v11) : S1024x128.Idx → EReal) = R1 m ρ c from W4_arr m ρ c 1]
  rw [show (W4 m ρ c (Proc.devRef .tc main_v10) : S1024x128.Idx → EReal) = W3 m ρ c (Proc.devRef .tc main_v10) from W4_of_ne m ρ c main_v10 (by decide)]
  rw [W3_v10]

/-! ## The result -/

theorem W7_v14_eq (c : Dev nD) : (W7 m ρ c (Proc.devRef .tc main_v14) : S4x2048x128.Idx → EReal)
    = shapeCast S4x2048x128 (W6 m ρ c (Proc.devRef .tc main_v13) : S8192x128.Idx → EReal) shapeCasts_S8192x128_S4x2048x128 := by
  show StableHlo.after hostOps3 (W6 m ρ c) (Proc.devRef .tc main_v14) = _
  after_results <;> rfl

/-- The program's result at `(b, s, d)` is region 2's result at flat token `2048·b + s`, lane `d`. -/
theorem W7_v14 (c : Dev nD) (b : Fin 4) (s : Fin 2048) (d : Fin 128) :
    (W7 m ρ c (Proc.devRef .tc main_v14) : S4x2048x128.Idx → EReal) (ix3 b s d) = R2 m ρ c (ix2 (tok b s) d) := by
  rw [W7_v14_eq, show (W6 m ρ c (Proc.devRef .tc main_v13) : S8192x128.Idx → EReal) = R2 m ρ c from W6_arr m ρ c 3]
  refine shapeCast_apply _ _ (ix3 b s d) (ix2 (tok b s) d) ?_
  rw [Shape.rowMajor_val_three, Shape.rowMajor_val_two]
  show (tok b s).val * 128 + d.val = (b.val * 2048 + s.val) * 128 + d.val
  simp only [tok]; omega

end Cert.KernelIdeal.Host

end
-- ==== Proof.KReg0.lean ====
/-
  Region 0 of the kernel's program (the scatter update), read as values at the ideal instance.
-/
import proofs.«430673_j89300960019113_2_alg».proof.Proof.Gen.KernelIdeal.Frame
import proofs.«430673_j89300960019113_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen Cert.Spec

variable (V : (c : Dev nD) → (b : Ref sig .tc) → Buf (Elt Ideal) ((c : Thread nD τ).loc b))

/-- `x` where the partition number `w` is `p`, else zero. -/
def wsel (w : BitVec 32) (p : Fin 1024) (x : EReal) : EReal := if BitVec.ofNat 32 p.val = w then x else 0

/-- Block `i` of core `cc` contributes to row `p`, lane `d`: over the block's 1024 tokens, the weight the token gives
    partition `p` times the token's value at lane `d`. -/
def delta0 (c : Dev nD) (cc : Fin 2) (i : Fin 4) (p : Fin 1024) (d : Fin 128) : EReal :=
  ∑ j : Fin 1024,
    (wsel ((V c main_v1 : S2x8192.Idx → BitVec 32) (ix2 0 (blkTok cc i j))) p ((V c main_v6 : S2x8192.Idx → EReal) (ix2 0 (blkTok cc i j)))
      + wsel ((V c main_v1 : S2x8192.Idx → BitVec 32) (ix2 1 (blkTok cc i j))) p ((V c main_v6 : S2x8192.Idx → EReal) (ix2 1 (blkTok cc i j))))
    * (V c main_v7 : S8192x128.Idx → EReal) (ix2 (blkTok cc i j) d)

/-! ## The body's arithmetic at an index -/

/-- One entry of the weight matrix: the key averages of the slots of token `j` that name partition `p`. -/
def wmat (x0 : Vec Ideal S2x1024 .i32) (x1 : Vec Ideal S2x1024 .f32) (p j : Fin 1024) : EReal :=
  wsel (x0 (ix2 0 j)) p (x1 (ix2 0 j)) + wsel (x0 (ix2 1 j)) p (x1 (ix2 1 j))

/-- The block's product at row `p`, lane `d`. -/
def dblk (x0 : Vec Ideal S2x1024 .i32) (x1 : Vec Ideal S2x1024 .f32) (x2 : Vec Ideal S1024x128 .f32) (p : Fin 1024) (d : Fin 128) : EReal :=
  ∑ j : Fin 1024, wmat x0 x1 p j * x2 (ix2 j d)

/-- A select on an equality test of words keeps the value where the words agree. -/
theorem select_cmpi_eq (a b : BitVec 32) (x : EReal) :
    Scalar.select (IntOp.cmpi .eq a b) x 0 = if a = b then x else 0 := by
  unfold Scalar.select IntOp.cmpi
  by_cases h : a = b
  · subst h; simp
  · have hb : (a == b) = false := by simpa using h
    simp [hb, h]

/-- One masked row of the weight matrix at `(p, j)`: slot `k`. -/
theorem wrow_apply (k : Fin 2) (o : Fin 2 → Nat) (ho : o = ![k.val, 0]) (hs : S2x1024.Slices o S1x1024)
    (x0 : Vec Ideal S2x1024 .i32) (x1 : Vec Ideal S2x1024 .f32) (p j : Fin 1024) :
    (select (cmpi .eq (iota .tc S1024x1024 32 [0] iota_S1024x1024_d0_w32)
        (broadcastTo S1024x1024 (extractStridedSlice S1x1024 o (shapeCast S2x1024 x0 shapeCasts_S2x1024_S2x1024) hs) broadcasts_S1x1024_S1024x1024))
      (broadcastTo S1024x1024 (shapeCast S1x1024 (extractStridedSlice S1x1024 o (shapeCast S2x1024 x1 shapeCasts_S2x1024_S2x1024) hs) shapeCasts_S1x1024_S1x1024) broadcasts_S1x1024_S1024x1024)
      (broadcast S1024x1024 (Scalar.ofBits (F := Ideal) .f32 0x00000000#32)) : FVec Ideal S1024x1024 .f32) (ix2 p j)
      = wsel (x0 (ix2 k j)) p (x1 (ix2 k j)) := by
  subst ho
  rw [select_apply, broadcast_apply]
  show Scalar.select (IntOp.cmpi .eq _ _) _ _ = _
  rw [iota_single_apply, broadcastTo_1b_ab_apply, broadcastTo_1b_ab_apply, shapeCast_self, shapeCast_self, shapeCast_self]
  rw [slice2_axis0_apply k.val x0 hs (0 : Fin 1) j k (by simp), slice2_axis0_apply k.val x1 hs (0 : Fin 1) j k (by simp)]
  show Scalar.select (IntOp.cmpi .eq (BitVec.ofNat 32 p.val) (x0 (ix2 k j))) (x1 (ix2 k j)) (Ideal.ofBits .f32 0x00000000#32) = _
  rw [Ideal.ofBits_zero_f32, select_cmpi_eq]
  rfl

/-- The block's matrix product read at `(p, d)`: the sum over the token `j` of the block. -/
theorem matmul_pd (A : FVec Ideal S1024x1024 .bf16) (B : FVec Ideal S1024x128 .bf16) (p : Fin 1024) (d : Fin 128) :
    (matmul dot_S1024x1024_S1024x128_S1024x128_1_0_0_1_n_n none A B (constant (F := Ideal) S1024x128 .f32 0x00000000#32) : FVec Ideal S1024x128 .f32) (ix2 p d)
      = ∑ j : Fin 1024, A (ix2 p j) * B (ix2 j d) := by
  show FloatOps.matmul _ none A B _ (ix2 p d) = _
  rw [Ideal.matmul_constant_zero_apply,
    ← Equiv.sum_comp (contrEquiv1 dot_S1024x1024_S1024x128_S1024x128_1_0_0_1_n_n 1024 rfl rfl).symm]
  refine Finset.sum_congr rfl fun j _ => ?_
  have c2 := contrEquiv1_symm_val dot_S1024x1024_S1024x128_S1024x128_1_0_0_1_n_n 1024 rfl rfl j
  have l2 : dot_S1024x1024_S1024x128_S1024x128_1_0_0_1_n_n.lhsIdx (ix2 p d) ((contrEquiv1 _ 1024 rfl rfl).symm j) = ix2 p j := by
    funext ax; apply Fin.ext
    match ax with
    | ⟨0, _⟩ => simp [DotDims.lhsIdx, dot_S1024x1024_S1024x128_S1024x128_1_0_0_1_n_n]; rfl
    | ⟨1, _⟩ => simp [DotDims.lhsIdx, dot_S1024x1024_S1024x128_S1024x128_1_0_0_1_n_n]; exact c2
  have r2 : dot_S1024x1024_S1024x128_S1024x128_1_0_0_1_n_n.rhsIdx (ix2 p d) ((contrEquiv1 _ 1024 rfl rfl).symm j) = ix2 j d := by
    funext ax; apply Fin.ext
    match ax with
    | ⟨0, _⟩ => simp [DotDims.rhsIdx, dot_S1024x1024_S1024x128_S1024x128_1_0_0_1_n_n]; exact c2
    | ⟨1, _⟩ => simp [DotDims.rhsIdx, dot_S1024x1024_S1024x128_S1024x128_1_0_0_1_n_n]; rfl
  rw [l2, r2]

/-- The body's update read at an index: what the output block held plus the block's product. -/
theorem pay2_apply (x0 : Vec Ideal S2x1024 .i32) (x1 : Vec Ideal S2x1024 .f32) (x2 : Vec Ideal S1024x128 .f32)
    (xo : Vec Ideal S1x1024x128 .f32) (p : Fin 1024) (d : Fin 128) :
    (k0_pay2 (F := Ideal) x0 x1 x2 xo : FVec Ideal S1x1024x128 .f32) (ix3 (0 : Fin 1) p d) = xo (ix3 (0 : Fin 1) p d) + dblk x0 x1 x2 p d := by
  unfold k0_pay2
  refine (addf_apply _ _ _).trans ?_
  rw [shapeCast_self, shapeCast_ab_1ab_apply, matmul_pd]
  refine congrArg (xo (ix3 (0 : Fin 1) p d) + ·) (Finset.sum_congr rfl fun j _ => ?_)
  rw [truncf_apply, truncf_apply, addf_apply, addf_apply, broadcast_apply,
    wrow_apply 0 ![0, 0] rfl, wrow_apply 1 ![1, 0] rfl, shapeCast_self]
  show (Ideal.ofBits .f32 0x00000000#32 + _ + _) * _ = _
  rw [Ideal.ofBits_zero_f32, zero_add]
  rfl

/-! ## What each case of the body leaves in the output block -/

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-- Where the reset is not taken the body leaves, in the output block holding `xo`, its one update of `xo`. -/
theorem out_B (c : Dev nD) (i : grid0.Coords) (a2 : Memref sig .tc .vmem S2x1024 .i32) (h2 : a2.IsWhole)
    (a3 : Memref sig .tc .vmem S2x1024 .f32) (h3 : a3.IsWhole) (a4 : Memref sig .tc .vmem S1024x128 .f32) (h4 : a4.IsWhole)
    (a5 : Memref sig .tc .vmem S1x1024x128 .f32) (h5 : a5.IsWhole) (hc : ¬cond0_0 i)
    (x0 : Vec F S2x1024 .i32) (x1 : Vec F S2x1024 .f32) (x2 : Vec F S1024x128 .f32) (xo : Vec F S1x1024x128 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S2x1024) hz2, View.ld_unit_zero (S := S1024x128) hz2, View.ld_unit_zero (S := S1x1024x128) hz3]

/-- Where the reset is taken the body leaves its update of the zero block. -/
theorem out_A (c : Dev nD) (i : grid0.Coords) (a2 : Memref sig .tc .vmem S2x1024 .i32) (h2 : a2.IsWhole)
    (a3 : Memref sig .tc .vmem S2x1024 .f32) (h3 : a3.IsWhole) (a4 : Memref sig .tc .vmem S1024x128 .f32) (h4 : a4.IsWhole)
    (a5 : Memref sig .tc .vmem S1x1024x128 .f32) (h5 : a5.IsWhole) (hc : cond0_0 i)
    (x0 : Vec F S2x1024 .i32) (x1 : Vec F S2x1024 .f32) (x2 : Vec F S1024x128 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1024x128) hz3, View.readCov_unit_zero (S := S1x1024x128) _ hz3]
  simp only [View.readAt_eq_ld, h2.read_unread, h3.read_unread, h4.read_unread,
    View.ld_unit_zero (S := S2x1024) hz2, View.ld_unit_zero (S := S1024x128) hz2]

end Pieces

/-! ## The windows' blocks, read off their arrays -/

/-- The windows' index maps, decided over the grid: the three input windows move with the flat point, the output
    window with the core. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = t.val ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-- The partition numbers' block at point `t` is columns `1024 t … 1024 t + 1023` of their array. -/
theorem blk0_apply (c : Dev nD) (t : Fin cfg0.N) (k : Fin 2) (j : Fin 1024) (j' : Fin 8192) (hj : j'.val = t.val * 1024 + j.val) :
    (iblk0 V c 0 t : Vec Ideal S2x1024 .i32) (ix2 k j) = (V c main_v1 : S2x8192.Idx → BitVec 32) (ix2 k j') := by
  obtain ⟨e0, e1, -⟩ := idx_facts t
  unfold iblk0
  rw [View.read_apply]
  show V c main_v1 _ = V c main_v1 _
  congr 1
  funext a
  apply Fin.ext
  match a with
  | ⟨0, _⟩ => show win0_0.index t (0 : Fin 2) * 2 + 1 * k.val = k.val; rw [e0]; omega
  | ⟨1, _⟩ => show win0_0.index t (1 : Fin 2) * 1024 + 1 * j.val = j'.val; rw [e1, hj]; omega

/-- The key averages' block at point `t` is the same columns of theirs. -/
theorem blk1_apply (c : Dev nD) (t : Fin cfg0.N) (k : Fin 2) (j : Fin 1024) (j' : Fin 8192) (hj : j'.val = t.val * 1024 + j.val) :
    (iblk0 V c 1 t : Vec Ideal S2x1024 .f32) (ix2 k j) = (V c main_v6 : S2x8192.Idx → EReal) (ix2 k j') := by
  obtain ⟨-, -, e0, e1, -⟩ := idx_facts t
  unfold iblk0
  rw [View.read_apply]
  show V c main_v6 _ = V c main_v6 _
  congr 1
  funext a
  apply Fin.ext
  match a with
  | ⟨0, _⟩ => show win0_1.index t (0 : Fin 2) * 2 + 1 * k.val = k.val; rw [e0]; omega
  | ⟨1, _⟩ => show win0_1.index t (1 : Fin 2) * 1024 + 1 * j.val = j'.val; rw [e1, hj]; omega

/-- The values' block at point `t` is rows `1024 t … 1024 t + 1023` of their array. -/
theorem blk2_apply (c : Dev nD) (t : Fin cfg0.N) (j : Fin 1024) (d : Fin 128) (j' : Fin 8192) (hj : j'.val = t.val * 1024 + j.val) :
    (iblk0 V c 2 t : Vec Ideal S1024x128 .f32) (ix2 j d) = (V c main_v7 : S8192x128.Idx → EReal) (ix2 j' d) := by
  obtain ⟨-, -, -, -, e0, e1, -⟩ := idx_facts t
  unfold iblk0
  rw [View.read_apply]
  show V c main_v7 _ = V c main_v7 _
  congr 1
  funext a
  apply Fin.ext
  match a with
  | ⟨0, _⟩ => show win0_2.index t (0 : Fin 2) * 1024 + 1 * j.val = j'.val; rw [e0, hj]; omega
  | ⟨1, _⟩ => show win0_2.index t (1 : Fin 2) * 128 + 1 * d.val = d.val; rw [e1]; omega

/-- The product of the blocks the windows hold at point `t`. -/
def dAt (c : Dev nD) (t : Fin cfg0.N) (p : Fin 1024) (d : Fin 128) : EReal :=
  dblk (iblk0 V c 0 t) (iblk0 V c 1 t) (iblk0 V c 2 t) p d

/-- Flat point `4 cc + i`. -/
def pt (cc : Fin 2) (i : Fin 4) : Fin cfg0.N :=
  ⟨4 * cc.val + i.val, by rw [show cfg0.N = 8 from N_0]; have := cc.isLt; have := i.isLt; omega⟩

/-- At point `4 cc + i` it is block `i` of core `cc`'s contribution. -/
theorem dAt_pt (c : Dev nD) (cc : Fin 2) (i : Fin 4) (p : Fin 1024) (d : Fin 128) :
    dAt V c (pt cc i) p d = delta0 V c cc i p d := by
  unfold dAt dblk delta0 wmat
  refine Finset.sum_congr rfl fun j _ => ?_
  rw [blk0_apply V c (pt cc i) 0 j (blkTok cc i j) rfl, blk0_apply V c (pt cc i) 1 j (blkTok cc i j) rfl,
    blk1_apply V c (pt cc i) 0 j (blkTok cc i j) rfl, blk1_apply V c (pt cc i) 1 j (blkTok cc i j) rfl,
    blk2_apply V c (pt cc i) j d (blkTok cc i j) rfl]

/-! ## What the output block holds after each point -/

/-- The zero block the reset stores reads zero. -/
theorem pay1_apply (y : S1x1024x128.Idx) : (k0_pay1 (F := Ideal) : FVec Ideal S1x1024x128 .f32) y = 0 := by
  unfold k0_pay1
  show Ideal.ofBits .f32 0x00000000#32 = 0
  exact Ideal.ofBits_zero_f32

/-- At the first point of a core the output block holds that point's product. -/
theorem step_A (c : Dev nD) (t : Fin cfg0.N) (h0 : t.val % 4 = 0) (p : Fin 1024) (d : Fin 128) :
    (outsAt0 V c t.val t.isLt : Vec Ideal S1x1024x128 .f32) (ix3 (0 : Fin 1) p d) = dAt V c t p d := by
  have e := (outsAt0_A V c t h0).trans
    (out_A (F := Ideal) c (grid0.coords t) (ms0_0 t) (hs0_0 t) (ms0_1 t) (hs0_1 t) (ms0_2 t) (hs0_2 t) (ms0_3 t) (hs0_3 t)
      ((hcond0_0 t).mpr h0) (iblk0 V c 0 t) (iblk0 V c 1 t) (iblk0 V c 2 t))
  refine (congrFun e (ix3 (0 : Fin 1) p d)).trans ?_
  refine (pay2_apply (iblk0 V c 0 t) (iblk0 V c 1 t) (iblk0 V c 2 t) (k0_pay1 (F := Ideal)) p d).trans ?_
  rw [pay1_apply, zero_add]
  rfl

/-- At every other point it holds what the point before left plus the point's product. -/
theorem step_B (c : Dev nD) (n : ℕ) (h : n + 1 < cfg0.N) (h0 : ¬(n + 1) % 4 = 0) (p : Fin 1024) (d : Fin 128) :
    (outsAt0 V c (n + 1) h : Vec Ideal S1x1024x128 .f32) (ix3 (0 : Fin 1) p d)
      = (outsAt0 V c n (Nat.lt_of_succ_lt h) : Vec Ideal S1x1024x128 .f32) (ix3 (0 : Fin 1) p d) + dAt V c ⟨n + 1, h⟩ p d := by
  have e := (outsAt0_B V c ⟨n + 1, h⟩ h0).trans
    (out_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩)
      (fun hh => h0 ((hcond0_0 ⟨n + 1, h⟩).mp hh)) (iblk0 V c 0 ⟨n + 1, h⟩) (iblk0 V c 1 ⟨n + 1, h⟩) (iblk0 V c 2 ⟨n + 1, h⟩)
      (outsAt0 V c n (Nat.lt_of_succ_lt h)))
  exact (congrFun e (ix3 (0 : Fin 1) p d)).trans
    (pay2_apply (iblk0 V c 0 ⟨n + 1, h⟩) (iblk0 V c 1 ⟨n + 1, h⟩) (iblk0 V c 2 ⟨n + 1, h⟩) (outsAt0 V c n (Nat.lt_of_succ_lt h)) p d)

/-- After a core's fourth point the output block holds its four products added in order. -/
theorem acc_four (c : Dev nD) (m : ℕ) (h : m + 3 < cfg0.N) (hm : m % 4 = 0) (p : Fin 1024) (d : Fin 128) :
    (outsAt0 V c (m + 3) h : Vec Ideal S1x1024x128 .f32) (ix3 (0 : Fin 1) p d)
      = ((dAt V c ⟨m, by omega⟩ p d + dAt V c ⟨m + 1, by omega⟩ p d) + dAt V c ⟨m + 2, by omega⟩ p d) + dAt V c ⟨m + 3, h⟩ p d := by
  have h2 : m + 2 < cfg0.N := by omega
  have h1 : m + 1 < cfg0.N := by omega
  have h0 : m < cfg0.N := by omega
  refine (step_B V c (m + 2) h (by omega) p d).trans ?_
  refine congrArg (· + dAt V c ⟨m + 3, h⟩ p d) ?_
  refine (step_B V c (m + 1) h2 (by omega) p d).trans ?_
  refine congrArg (· + dAt V c ⟨m + 2, h2⟩ p d) ?_
  refine (step_B V c m h1 (by omega) p d).trans ?_
  exact congrArg (· + dAt V c ⟨m + 1, h1⟩ p d) (step_A V c ⟨m, h0⟩ hm p d)

/-! ## The array after the region -/

/-- Row `p`, lane `d` of core `cc`'s partial table. -/
def part (c : Dev nD) (cc : Fin 2) (p : Fin 1024) (d : Fin 128) : EReal :=
  ((delta0 V c cc 0 p d + delta0 V c cc 1 p d) + delta0 V c cc 2 p d) + delta0 V c cc 3 p d

/-- The two cores' partial tables as one array. -/
def parts (c : Dev nD) : S2x1024x128.Idx → EReal := fun y => part V c (y 0) (y 1) (y 2)

theorem parts_apply (c : Dev nD) (y : S2x1024x128.Idx) (cc : Fin 2) (p : Fin 1024) (d : Fin 128)
    (h0 : (y 0).val = cc.val) (h1 : (y 1).val = p.val) (h2 : (y 2).val = d.val) : parts V c y = part V c cc p d := by
  obtain rfl : y = ix3 cc p d := funext fun a => Fin.ext (match a with | ⟨0, _⟩ => h0 | ⟨1, _⟩ => h1 | ⟨2, _⟩ => h2)
  rfl

/-- After a core's fourth point the output block holds the core's partial table. -/
theorem acc_part (c : Dev nD) (m : ℕ) (hn : m + 3 < cfg0.N) (hm : m % 4 = 0) (hcc : m / 4 < 2) (u : Fin 1) (p : Fin 1024) (d : Fin 128) :
    (outsAt0 V c (m + 3) hn : Vec Ideal S1x1024x128 .f32) (ix3 u p d) = part V c ⟨m / 4, hcc⟩ p d := by
  obtain rfl : u = 0 := Subsingleton.elim _ _
  have hp : ∀ (i : Fin 4) (hi : m + i.val < cfg0.N), (⟨m + i.val, hi⟩ : Fin cfg0.N) = pt ⟨m / 4, hcc⟩ i :=
    fun i hi => Fin.ext (by show m + i.val = 4 * (m / 4) + i.val; omega)
  rw [acc_four V c m hn hm p d]
  unfold part
  rw [← dAt_pt, ← dAt_pt, ← dAt_pt, ← dAt_pt, ← hp 0 (by omega), ← hp 1 (by omega), ← hp 2 (by omega), ← hp 3 hn]
  rfl

/-- A point that writes the output block back writes its core's partial table. -/
theorem flushed_eq (c : Dev nD) (t : Fin cfg0.N) (hf : (cfg0.win 3).flush t = true) :
    (dat0 V c).flushed 3 t = ((cfg0.win 3).blk t).view.read (Elt Ideal) (parts V c) := by
  have h3 : t.val % 4 = 3 := (flush0_3 t).mp hf
  have hN : cfg0.N = 8 := N_0
  obtain ⟨-, -, -, -, -, -, e0, e1, e2⟩ := idx_facts t
  show (cfg0.win 3).cut (grid0.coords t) ((dat0 V c).after 3 t) = _
  rw [after0_3]
  obtain ⟨n, hn⟩ := t
  obtain ⟨m, rfl⟩ : ∃ m, n = m + 3 := ⟨n - 3, by dsimp only at h3; omega⟩
  dsimp only at h3 e0 e1 e2
  have hm : m % 4 = 0 := by omega
  have hcc : m / 4 < 2 := by omega
  funext y
  obtain ⟨u, p, d, rfl⟩ : ∃ (u : Fin 1) (p : Fin 1024) (d : Fin 128), y = ix3 u p d := ⟨y 0, y 1, y 2, eq_ix3 y⟩
  show (outsAt0 V c (m + 3) hn : Vec Ideal S1x1024x128 .f32) (ix3 u p d) = parts V c (((cfg0.win 3).blk ⟨m + 3, hn⟩).view.emb (ix3 u p d))
  have hu : u.val = 0 := by omega
  rw [parts_apply V c _ ⟨m / 4, hcc⟩ p d
    (by show win0_3.index ⟨m + 3, hn⟩ (0 : Fin 3) * 1 + 1 * u.val = m / 4; rw [e0, hu]; omega)
    (by show win0_3.index ⟨m + 3, hn⟩ (1 : Fin 3) * 1024 + 1 * p.val = p.val; rw [e1]; omega)
    (by show win0_3.index ⟨m + 3, hn⟩ (2 : Fin 3) * 128 + 1 * d.val = d.val; rw [e2]; omega)]
  exact acc_part V c m hn hm hcc u p d

/-- Every entry of the output array is in the block some core's last point writes back. -/
theorem covered (i : S2x1024x128.Idx) :
    ∃ t : Fin cfg0.N, (cfg0.win 3).flush t = true ∧ i ∈ ((cfg0.win 3).blk t).view.set := by
  have hN : cfg0.N = 8 := N_0
  have h0 : (i 0).val < 2 := (i 0).isLt
  have h1 : (i 1).val < 1024 := (i 1).isLt
  have h2 : (i 2).val < 128 := (i 2).isLt
  have ht : 4 * (i 0).val + 3 < cfg0.N := by omega
  refine ⟨⟨4 * (i 0).val + 3, ht⟩, (flush0_3 _).mpr (by show (4 * (i 0).val + 3) % 4 = 3; omega), ?_⟩
  obtain ⟨-, -, -, -, -, -, e0, e1, e2⟩ := idx_facts ⟨4 * (i 0).val + 3, ht⟩
  dsimp only at e0 e1 e2
  show i ∈ ((View.whole main_v9).slice (win0_3.rect ⟨4 * (i 0).val + 3, ht⟩)).set
  rw [View.set_slice_whole, Rect.mem_set_unit]
  intro a
  match a with
  | ⟨0, _⟩ =>
    show win0_3.index ⟨4 * (i 0).val + 3, ht⟩ (0 : Fin 3) * 1 ≤ (i 0).val ∧ (i 0).val < win0_3.index ⟨4 * (i 0).val + 3, ht⟩ (0 : Fin 3) * 1 + 1
    rw [e0]; omega
  | ⟨1, _⟩ =>
    show win0_3.index ⟨4 * (i 0).val + 3, ht⟩ (1 : Fin 3) * 1024 ≤ (i 1).val ∧ (i 1).val < win0_3.index ⟨4 * (i 0).val + 3, ht⟩ (1 : Fin 3) * 1024 + 1024
    rw [e1]; omega
  | ⟨2, _⟩ =>
    show win0_3.index ⟨4 * (i 0).val + 3, ht⟩ (2 : Fin 3) * 128 ≤ (i 2).val ∧ (i 2).val < win0_3.index ⟨4 * (i 0).val + 3, ht⟩ (2 : Fin 3) * 128 + 128
    rw [e2]; omega

/-- After the region, row `p` of core `cc`'s partial table holds its four blocks' contributions added in order. -/
theorem arr0 (c : Dev nD) (cc : Fin 2) (p : Fin 1024) (d : Fin 128) :
    ((dat0 (F := Ideal) V c).arrAt 3 cfg0.N : S2x1024x128.Idx → EReal) (ix3 cc p d)
      = ((delta0 V c cc 0 p d + delta0 V c cc 1 p d) + delta0 V c cc 2 p d) + delta0 V c cc 3 p d :=
  congrFun ((dat0 (F := Ideal) V c).arrAt_eq_of_cover 3 (parts V c) (flushed_eq V c) covered) (ix3 cc p d)

end Cert.KernelIdeal.Reg0

end
-- ==== Proof.KReg1.lean ====
/-
  Region 1 of the kernel's program (the average of the old states over the key positions), read as values at the ideal instance.
-/
import proofs.«430673_j89300960019113_2_alg».proof.Proof.Gen.KernelIdeal.Frame
import proofs.«430673_j89300960019113_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen Cert.Spec

variable (V : (c : Dev nD) → (b : Ref sig .tc) → Buf (Elt Ideal) ((c : Thread nD τ).loc b))

/-- The body's result at row `r` of the block and lane `d`: the sum of the 64 states `(r, ·, d)` of the block, divided
    by the literal 64. -/
theorem pay1_apply (x0 : FVec Ideal S128x64x128 .f32) (r d : Fin 128) :
    (k1_pay1 (F := Ideal) x0 : S128x128.Idx → EReal) (ix2 r d)
      = Ideal.div (∑ cc : Fin 64, (x0 : S128x64x128.Idx → EReal) (ix3 r cc d)) (Ideal.ofBits .f32 0x42800000#32) := by
  unfold k1_pay1
  refine (divf_apply _ _ _).trans ?_
  refine congrArg₂ Ideal.div ?_ rfl
  refine (Ideal.multiReduction_add_single x0 _ _ _ _ (ix2 r d)).trans ?_
  refine Finset.sum_congr rfl fun k _ => congrArg x0 ?_
  funext a
  match a with
  | ⟨0, _⟩ => rfl
  | ⟨1, _⟩ => rfl
  | ⟨2, _⟩ => rfl

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output's buffer, at row `r` of the block and lane `d`. -/
theorem out1_apply (x0 : Vec Ideal S128x64x128 .f32) (r d : Fin 128) :
    (out1_1 (F := Ideal) x0 : S128x128.Idx → EReal) (ix2 r d)
      = Ideal.div (∑ cc : Fin 64, (x0 : S128x64x128.Idx → EReal) (ix3 r cc d)) (Ideal.ofBits .f32 0x42800000#32) := by
  unfold out1_1
  rw [View.canon_unit_zero hz2]
  simp only [View.ld_unit_zero (S := S128x64x128) hz3]
  exact pay1_apply x0 r d

/-- The value of the region's result at partition `p`, lane `d`, from the array of states. -/
def val1 (A : S1024x64x128.Idx → EReal) (p : Fin 1024) (d : Fin 128) : EReal :=
  Ideal.div (∑ cc : Fin 64, A (ix3 p cc d)) (Ideal.ofBits .f32 0x42800000#32)

/-- The same as one function of the result's index. -/
def arrG1 (A : S1024x64x128.Idx → EReal) : S1024x128.Idx → EReal :=
  fun i => val1 A ⟨(i 0).val, idx2_lt0 i⟩ ⟨(i 1).val, idx2_lt1 i⟩

/-- One grid point: if the input buffer holds block `n` of the states (partitions `128 n …`), the body leaves block `n`
    of `arrG1` in the output's buffer. -/
theorem point1 (A : S1024x64x128.Idx → EReal) (x0 : Vec Ideal S128x64x128 .f32) (n : ℕ) (hn : n < 8)
    (h0 : ∀ (r : Fin 128) (cc : Fin 64) (d : Fin 128),
      (x0 : S128x64x128.Idx → EReal) (ix3 r cc d) = A (ix3 ⟨128 * n + r.val, by have := r.isLt; omega⟩ cc d))
    (y : S128x128.Idx) (i : S1024x128.Idx) (hi0 : (i 0).val = 128 * n + (y 0).val) (hi1 : (i 1).val = (y 1).val) :
    (out1_1 (F := Ideal) x0 : S128x128.Idx → EReal) y = arrG1 A i := by
  obtain ⟨r, d, rfl⟩ : ∃ (r : Fin 128) (d : Fin 128), y = ix2 r d := ⟨y 0, y 1, eq_ix2 y⟩
  rw [out1_apply]
  unfold arrG1 val1
  have e0 : (⟨(i 0).val, idx2_lt0 i⟩ : Fin 1024) = ⟨128 * n + r.val, by have := r.isLt; omega⟩ := Fin.ext hi0
  have e1 : (⟨(i 1).val, idx2_lt1 i⟩ : Fin 128) = d := Fin.ext hi1
  rw [e0, e1]
  refine congrArg₂ Ideal.div (Finset.sum_congr rfl fun cc _ => ?_) rfl
  rw [h0 r cc d]

/-- The grid has eight points. -/
theorem lt8 (t : Fin cfg1.N) : t.val < 8 := lt_of_lt_of_eq t.isLt N_1

/-- The printed index maps, decided over the grid: at point `t` both blocks are block `t` along the partitions. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0 :=
  (by decide +kernel : ∀ t : Fin grid1.N, _)

/-- The states' block at point `t` is partitions `128 t …` of the array. -/
theorem iblk1_0_apply (c : Dev nD) (t : Fin cfg1.N) (r : Fin 128) (cc : Fin 64) (d : Fin 128) :
    (iblk1 (F := Ideal) V c 0 t : S128x64x128.Idx → EReal) (ix3 r cc d)
      = (V c main_arg4 : S1024x64x128.Idx → EReal) (ix3 ⟨128 * t.val + r.val, by have := lt8 t; have := r.isLt; omega⟩ cc d) := by
  obtain ⟨e0, e1, e2, -⟩ := idx_facts1 t
  unfold iblk1
  rw [View.read_apply]
  show V c main_arg4 _ = V c main_arg4 _
  congr 1
  funext a; apply Fin.ext
  match a with
  | ⟨0, _⟩ => show win1_0.index t (0 : Fin 3) * 128 + 1 * r.val = 128 * t.val + r.val; rw [e0]; omega
  | ⟨1, _⟩ => show win1_0.index t (1 : Fin 3) * 64 + 1 * cc.val = cc.val; rw [e1]; omega
  | ⟨2, _⟩ => show win1_0.index t (2 : Fin 3) * 128 + 1 * d.val = d.val; rw [e2]; omega

/-- What point `t` writes back is block `t` of `arrG1` of the states as the region finds them. -/
theorem flushed1_eq (c : Dev nD) (t : Fin cfg1.N) :
    (dat1 (F := Ideal) V c).flushed 1 t
      = ((cfg1.win 1).blk t).view.read (Elt Ideal) (arrG1 (V c main_arg4)) := by
  show (cfg1.win 1).cut (grid1.coords t) ((dat1 V c).after 1 t) = _
  rw [after1_1]
  obtain ⟨-, -, -, e3, e4⟩ := idx_facts1 t
  funext y
  show out1_1 (iblk1 V c 0 t) ((cfg1.win 1).xinj (grid1.coords t) y)
    = arrG1 (V c main_arg4) (((cfg1.win 1).blk t).view.emb y)
  refine point1 (V c main_arg4) (iblk1 V c 0 t) t.val (lt8 t)
    (fun r cc d => iblk1_0_apply V c t r cc d)
    ((cfg1.win 1).xinj (grid1.coords t) y) (((cfg1.win 1).blk t).view.emb y) ?_ ?_
  · show win1_1.index t (0 : Fin 2) * 128 + 1 * (y 0).val = 128 * t.val + (y 0).val; rw [e3]; omega
  · show win1_1.index t (1 : Fin 2) * 128 + 1 * (y 1).val = (y 1).val; rw [e4]; omega

/-- An index of the result is in point `t`'s block iff each coordinate is in the block's range on its axis. -/
theorem mem_blk1 (t : Fin cfg1.N) (i : S1024x128.Idx) :
    i ∈ ((cfg1.win 1).blk t).view.set ↔ ∀ a : Fin 2, win1_1.index t a * S128x128.size a ≤ (i a).val ∧ (i a).val < win1_1.index t a * S128x128.size a + S128x128.size a := by
  show i ∈ ((View.whole main_v11).slice (win1_1.rect t)).set ↔ _
  rw [View.set_slice_whole, Rect.mem_set_unit]
  exact Iff.rfl

/-- Row `r` of the result is in the block of point `r / 128`, which is written back. -/
theorem cover1 (i : S1024x128.Idx) :
    ∃ t : Fin cfg1.N, (cfg1.win 1).flush t = true ∧ i ∈ ((cfg1.win 1).blk t).view.set := by
  have h0 : (i 0).val < 1024 := idx2_lt0 i
  have h1 : (i 1).val < 128 := idx2_lt1 i
  obtain ⟨t, ht⟩ : ∃ t : Fin cfg1.N, t.val = (i 0).val / 128 :=
    ⟨⟨(i 0).val / 128, by rw [show cfg1.N = 8 from N_1]; omega⟩, rfl⟩
  obtain ⟨-, -, -, e3, e4⟩ := idx_facts1 t
  refine ⟨t, flush1_1 t, ?_⟩
  rw [mem_blk1]
  intro a
  match a with
  | ⟨0, _⟩ => show win1_1.index t (0 : Fin 2) * 128 ≤ (i 0).val ∧ (i 0).val < win1_1.index t (0 : Fin 2) * 128 + 128; rw [e3]; omega
  | ⟨1, _⟩ => show win1_1.index t (1 : Fin 2) * 128 ≤ (i 1).val ∧ (i 1).val < win1_1.index t (1 : Fin 2) * 128 + 128; rw [e4]; omega

/-- The result array after the region is `arrG1` of the states as the region finds them. -/
theorem final1 (c : Dev nD) :
    (dat1 (F := Ideal) V c).arrAt 1 cfg1.N = arrG1 (V c main_arg4) :=
  (dat1 (F := Ideal) V c).arrAt_eq_of_cover 1 (arrG1 (V c main_arg4)) (fun t _ => flushed1_eq V c t) cover1

/-- After the region, entry `(p, d)` of its result holds the sum of the 64 states `(p, ·, d)` divided by the literal 64. -/
theorem arr1 (c : Dev nD) (p : Fin 1024) (d : Fin 128) :
    ((dat1 (F := Ideal) V c).arrAt 1 cfg1.N : S1024x128.Idx → EReal) (ix2 p d)
      = Ideal.div (∑ cc : Fin 64, (V c main_arg4 : S1024x64x128.Idx → EReal) (ix3 p cc d)) (Ideal.ofBits .f32 0x42800000#32) := by
  exact congrFun (final1 V c) (ix2 p d)

end Cert.KernelIdeal.Reg1

end
-- ==== Proof.KReg2.lean ====
/-
  Region 2 of the kernel's program (the read-back through hit counts), read as values at the ideal instance.
-/
import proofs.«430673_j89300960019113_2_alg».proof.Proof.Gen.KernelIdeal.Frame
import proofs.«430673_j89300960019113_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen Cert.Spec

variable (V : (c : Dev nD) → (b : Ref sig .tc) → Buf (Elt Ideal) ((c : Thread nD τ).loc b))

/-- One where the partition number `w` is `p`, else zero. -/
def hot (w : BitVec 32) (p : Fin 1024) : EReal := if BitVec.ofNat 32 p.val = w then 1 else 0

/-- The float of a widened equality bit is the indicator of the equality. -/
theorem sitofp_eq_bit (a w : BitVec 32) :
    FloatOps.sitofp (F := Ideal) .f32 ((IntOp.cmpi .eq a w).setWidth 32) = if a = w then (1 : EReal) else 0 := by
  show (((((IntOp.cmpi .eq a w).setWidth 32).toInt : ℝ)) : EReal) = _
  by_cases h : a = w
  · subst h
    rw [if_pos rfl]
    simp [IntOp.cmpi]
  · rw [if_neg h]
    have : (a == w) = false := by simpa using h
    simp [IntOp.cmpi, this]

/-! The product's operand indices, coordinate by coordinate: both operands are contracted along axis 0, the left operand's axis 1
    is the result's row and the right operand's axis 1 the result's lane. -/

theorem lhs_D2_0 (j : S1024x128.Idx) (k : dot_S1024x1024_S1024x128_S1024x128_0_0_1_1_n_n.contr.Idx) :
    (dot_S1024x1024_S1024x128_S1024x128_0_0_1_1_n_n.lhsIdx j k 0 : ℕ) = k ⟨0, by decide⟩ := by
  simp [DotDims.lhsIdx, dot_S1024x1024_S1024x128_S1024x128_0_0_1_1_n_n]; rfl
theorem lhs_D2_1 (j : S1024x128.Idx) (k : dot_S1024x1024_S1024x128_S1024x128_0_0_1_1_n_n.contr.Idx) :
    (dot_S1024x1024_S1024x128_S1024x128_0_0_1_1_n_n.lhsIdx j k 1 : ℕ) = j 0 := by
  simp [DotDims.lhsIdx, dot_S1024x1024_S1024x128_S1024x128_0_0_1_1_n_n]; rfl
theorem rhs_D2_0 (j : S1024x128.Idx) (k : dot_S1024x1024_S1024x128_S1024x128_0_0_1_1_n_n.contr.Idx) :
    (dot_S1024x1024_S1024x128_S1024x128_0_0_1_1_n_n.rhsIdx j k 0 : ℕ) = k ⟨0, by decide⟩ := by
  simp [DotDims.rhsIdx, dot_S1024x1024_S1024x128_S1024x128_0_0_1_1_n_n]; rfl
theorem rhs_D2_1 (j : S1024x128.Idx) (k : dot_S1024x1024_S1024x128_S1024x128_0_0_1_1_n_n.contr.Idx) :
    (dot_S1024x1024_S1024x128_S1024x128_0_0_1_1_n_n.rhsIdx j k 1 : ℕ) = j 1 := by
  simp [DotDims.rhsIdx, dot_S1024x1024_S1024x128_S1024x128_0_0_1_1_n_n]; rfl

/-- Row `k` of the hit matrix's term, built from the partition numbers block: entry `(p, j)` is the indicator that
    slot `k` of token `j` names partition `p`. -/
theorem hit_apply (x0 : IVec S2x1024 32) (o : Nat) (k : Fin 2) (hk : k.val = o) (h : S2x1024.Slices ![o, 0] S1x1024)
    (hb : S1x1024.Broadcasts S1024x1024) (hi : S1024x1024.Iotas .tc 32 [0]) (h32 : 1 < 32)
    (p j : Fin 1024) :
    (sitofp (F := Ideal) .f32 (extui 32 (cmpi .eq (iota .tc S1024x1024 32 [0] hi)
        (broadcastTo S1024x1024 (extractStridedSlice S1x1024 ![o, 0] x0 h) hb)) h32) : S1024x1024.Idx → EReal) (ix2 p j)
      = hot (x0 (ix2 k j)) p := by
  show FloatOps.sitofp (F := Ideal) .f32 ((IntOp.cmpi .eq (iota .tc S1024x1024 32 [0] hi (ix2 p j))
        (broadcastTo S1024x1024 (extractStridedSlice S1x1024 ![o, 0] x0 h) hb (ix2 p j))).setWidth 32) = _
  rw [sitofp_eq_bit, iota_single_apply, broadcastTo_1b_ab_apply, slice2_axis0_apply o x0 h (0 : Fin 1) j k (by simp [hk])]
  rfl

/-- The product with the accumulator zero, read at `(j, d)`: both operands are contracted along their first axis,
    so the sum runs over the rows `p` of both. -/
theorem matmul_rows_apply (G : FVec Ideal S1024x1024 .bf16) (T : FVec Ideal S1024x128 .bf16) (j : Fin 1024) (d : Fin 128) :
    (matmul dot_S1024x1024_S1024x128_S1024x128_0_0_1_1_n_n none G T (constant (F := Ideal) S1024x128 .f32 0x00000000#32) : S1024x128.Idx → EReal) (ix2 j d)
      = ∑ p : Fin 1024, (G (ix2 p j) : EReal) * (T (ix2 p d) : EReal) := by
  refine (Ideal.matmul_constant_zero_apply dot_S1024x1024_S1024x128_S1024x128_0_0_1_1_n_n none G T (ix2 j d)).trans ?_
  rw [← Equiv.sum_comp (contrEquiv1 dot_S1024x1024_S1024x128_S1024x128_0_0_1_1_n_n 1024 rfl rfl).symm]
  refine Finset.sum_congr rfl fun p _ => ?_
  have hl : dot_S1024x1024_S1024x128_S1024x128_0_0_1_1_n_n.lhsIdx (ix2 j d)
      ((contrEquiv1 dot_S1024x1024_S1024x128_S1024x128_0_0_1_1_n_n 1024 rfl rfl).symm p) = ix2 p j := by
    funext a; apply Fin.ext
    match a with
    | ⟨0, _⟩ => exact (lhs_D2_0 _ _).trans (contrEquiv1_symm_val _ _ _ _ p)
    | ⟨1, _⟩ => exact lhs_D2_1 _ _
  have hr : dot_S1024x1024_S1024x128_S1024x128_0_0_1_1_n_n.rhsIdx (ix2 j d)
      ((contrEquiv1 dot_S1024x1024_S1024x128_S1024x128_0_0_1_1_n_n 1024 rfl rfl).symm p) = ix2 p d := by
    funext a; apply Fin.ext
    match a with
    | ⟨0, _⟩ => exact (rhs_D2_0 _ _).trans (contrEquiv1_symm_val _ _ _ _ p)
    | ⟨1, _⟩ => exact rhs_D2_1 _ _
  rw [hl, hr]

/-- The body's result at token `j` of the block, lane `d`: the count-weighted sum over the partitions of the table's
    lane `d`, times the query entry. -/
theorem pay2_apply (x0 : Vec Ideal S2x1024 .i32) (x1 x2 : Vec Ideal S1024x128 .f32) (j : Fin 1024) (d : Fin 128) :
    (k2_pay1 (F := Ideal) x2 x0 x1 : S1024x128.Idx → EReal) (ix2 j d)
      = (∑ p : Fin 1024, (hot ((x0 : S2x1024.Idx → BitVec 32) (ix2 0 j)) p + hot ((x0 : S2x1024.Idx → BitVec 32) (ix2 1 j)) p)
            * (x2 : S1024x128.Idx → EReal) (ix2 p d)) * (x1 : S1024x128.Idx → EReal) (ix2 j d) := by
  unfold k2_pay1
  simp only [shapeCast_self]
  refine (mulf_apply _ _ _).trans ?_
  refine congrArg (· * _) ?_
  refine (matmul_rows_apply _ _ j d).trans ?_
  refine Finset.sum_congr rfl fun p _ => ?_
  refine congrArg (· * _) ?_
  simp only [truncf_apply, addf_apply, broadcast_apply, hit_apply x0 0 0 rfl, hit_apply x0 1 1 rfl, Ideal.ofBits_def,
    Ideal.ofBits_zero_f32, zero_add]

theorem hz2 : (![0, 0] : Fin 2 → Nat) = fun _ => 0 := funext fun a => by fin_cases a <;> rfl

/-- What the body leaves in the output's buffer, at token `j` of the block and lane `d`: windows 0, 1, 2 hold the
    partition numbers, the queries and the table. -/
theorem out2_apply (x0 : Vec Ideal S2x1024 .i32) (x1 x2 : Vec Ideal S1024x128 .f32) (j : Fin 1024) (d : Fin 128) :
    (out2_3 (F := Ideal) x0 x1 x2 : S1024x128.Idx → EReal) (ix2 j d)
      = (∑ p : Fin 1024, (hot ((x0 : S2x1024.Idx → BitVec 32) (ix2 0 j)) p + hot ((x0 : S2x1024.Idx → BitVec 32) (ix2 1 j)) p)
            * (x2 : S1024x128.Idx → EReal) (ix2 p d)) * (x1 : S1024x128.Idx → EReal) (ix2 j d) := by
  unfold out2_3
  rw [View.canon_unit_zero hz2]
  simp only [View.ld_unit_zero (S := S1024x128) hz2, View.ld_unit_zero (S := S2x1024) hz2]
  exact pay2_apply x0 x1 x2 j d

/-- The value of the region's result at token `t`, lane `d`, from the three arrays it reads. -/
def val2 (A0 : S2x8192.Idx → BitVec 32) (A1 : S8192x128.Idx → EReal) (A2 : S1024x128.Idx → EReal) (t : Fin 8192) (d : Fin 128) : EReal :=
  (∑ p : Fin 1024, (hot (A0 (ix2 0 t)) p + hot (A0 (ix2 1 t)) p) * A2 (ix2 p d)) * A1 (ix2 t d)

/-- The same as one function of the result's index. -/
def arrG2 (A0 : S2x8192.Idx → BitVec 32) (A1 : S8192x128.Idx → EReal) (A2 : S1024x128.Idx → EReal) : S8192x128.Idx → EReal :=
  fun i => val2 A0 A1 A2 ⟨(i 0).val, idx2_lt0 i⟩ ⟨(i 1).val, idx2_lt1 i⟩

/-- One grid point: if the three buffers hold block `n` of the partition numbers (columns `1024 n …`), block `n` of the
    queries (rows `1024 n …`) and the whole table, the body leaves block `n` of `arrG2` in the output's buffer. -/
theorem point2 (A0 : S2x8192.Idx → BitVec 32) (A1 : S8192x128.Idx → EReal) (A2 : S1024x128.Idx → EReal)
    (x0 : Vec Ideal S2x1024 .i32) (x1 x2 : Vec Ideal S1024x128 .f32) (n : ℕ) (hn : n < 8)
    (h0 : ∀ (k : Fin 2) (j : Fin 1024), (x0 : S2x1024.Idx → BitVec 32) (ix2 k j) = A0 (ix2 k ⟨1024 * n + j.val, by have := j.isLt; omega⟩))
    (h1 : ∀ (j : Fin 1024) (d : Fin 128), (x1 : S1024x128.Idx → EReal) (ix2 j d) = A1 (ix2 ⟨1024 * n + j.val, by have := j.isLt; omega⟩ d))
    (h2 : ∀ (p : Fin 1024) (d : Fin 128), (x2 : S1024x128.Idx → EReal) (ix2 p d) = A2 (ix2 p d))
    (y : S1024x128.Idx) (i : S8192x128.Idx) (hi0 : (i 0).val = 1024 * n + (y 0).val) (hi1 : (i 1).val = (y 1).val) :
    (out2_3 (F := Ideal) x0 x1 x2 : S1024x128.Idx → EReal) y = arrG2 A0 A1 A2 i := by
  obtain ⟨j, d, rfl⟩ : ∃ (j : Fin 1024) (d : Fin 128), y = ix2 j d := ⟨y 0, y 1, eq_ix2 y⟩
  rw [out2_apply]
  unfold arrG2 val2
  have e0 : (⟨(i 0).val, idx2_lt0 i⟩ : Fin 8192) = ⟨1024 * n + j.val, by have := j.isLt; omega⟩ := Fin.ext hi0
  have e1 : (⟨(i 1).val, idx2_lt1 i⟩ : Fin 128) = d := Fin.ext hi1
  rw [e0, e1, h0 0 j, h0 1 j, h1 j d]
  refine congrArg (· * _) (Finset.sum_congr rfl fun p _ => ?_)
  rw [h2 p d]

/-- The grid has eight points. -/
theorem lt8 (t : Fin cfg2.N) : t.val < 8 := lt_of_lt_of_eq t.isLt N_2

/-- The printed index maps, decided over the grid: at point `t` the partition numbers' block is column block `t`, the
    queries' and the result's blocks are row block `t`, the table's block is the whole table. -/
theorem idx_facts2 : ∀ t : Fin cfg2.N,
    win2_0.index t (0 : Fin 2) = 0 ∧ win2_0.index t (1 : Fin 2) = t.val
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The partition numbers' block at point `t` is columns `1024 t …` of the array. -/
theorem iblk2_0_apply (c : Dev nD) (t : Fin cfg2.N) (k : Fin 2) (j : Fin 1024) :
    (iblk2 (F := Ideal) V c 0 t : S2x1024.Idx → BitVec 32) (ix2 k j)
      = (V c main_v1 : S2x8192.Idx → BitVec 32) (ix2 k ⟨1024 * t.val + j.val, by have := lt8 t; have := j.isLt; omega⟩) := by
  obtain ⟨e0, e1, -⟩ := idx_facts2 t
  unfold iblk2
  rw [View.read_apply]
  show V c main_v1 _ = V c main_v1 _
  congr 1
  funext a; apply Fin.ext
  match a with
  | ⟨0, _⟩ => show win2_0.index t (0 : Fin 2) * 2 + 1 * k.val = k.val; rw [e0]; omega
  | ⟨1, _⟩ => show win2_0.index t (1 : Fin 2) * 1024 + 1 * j.val = 1024 * t.val + j.val; rw [e1]; omega

/-- The queries' block at point `t` is rows `1024 t …` of the array. -/
theorem iblk2_1_apply (c : Dev nD) (t : Fin cfg2.N) (j : Fin 1024) (d : Fin 128) :
    (iblk2 (F := Ideal) V c 1 t : S1024x128.Idx → EReal) (ix2 j d)
      = (V c main_v8 : S8192x128.Idx → EReal) (ix2 ⟨1024 * t.val + j.val, by have := lt8 t; have := j.isLt; omega⟩ d) := by
  obtain ⟨-, -, e2, e3, -⟩ := idx_facts2 t
  unfold iblk2
  rw [View.read_apply]
  show V c main_v8 _ = V c main_v8 _
  congr 1
  funext a; apply Fin.ext
  match a with
  | ⟨0, _⟩ => show win2_1.index t (0 : Fin 2) * 1024 + 1 * j.val = 1024 * t.val + j.val; rw [e2]; omega
  | ⟨1, _⟩ => show win2_1.index t (1 : Fin 2) * 128 + 1 * d.val = d.val; rw [e3]; omega

/-- The table's block at every point is the whole table. -/
theorem iblk2_2_apply (c : Dev nD) (t : Fin cfg2.N) (p : Fin 1024) (d : Fin 128) :
    (iblk2 (F := Ideal) V c 2 t : S1024x128.Idx → EReal) (ix2 p d) = (V c main_v12 : S1024x128.Idx → EReal) (ix2 p d) := by
  obtain ⟨-, -, -, -, e4, e5, -⟩ := idx_facts2 t
  unfold iblk2
  rw [View.read_apply]
  show V c main_v12 _ = V c main_v12 _
  congr 1
  funext a; apply Fin.ext
  match a with
  | ⟨0, _⟩ => show win2_2.index t (0 : Fin 2) * 1024 + 1 * p.val = p.val; rw [e4]; omega
  | ⟨1, _⟩ => show win2_2.index t (1 : Fin 2) * 128 + 1 * d.val = d.val; rw [e5]; omega

/-- What point `t` writes back is block `t` of `arrG2` of the arrays the region finds. -/
theorem flushed2_eq (c : Dev nD) (t : Fin cfg2.N) :
    (dat2 (F := Ideal) V c).flushed 3 t
      = ((cfg2.win 3).blk t).view.read (Elt Ideal) (arrG2 (V c main_v1) (V c main_v8) (V c main_v12)) := by
  show (cfg2.win 3).cut (grid2.coords t) ((dat2 V c).after 3 t) = _
  rw [after2_3]
  obtain ⟨-, -, -, -, -, -, e6, e7⟩ := idx_facts2 t
  funext y
  show out2_3 (iblk2 V c 0 t) (iblk2 V c 1 t) (iblk2 V c 2 t) ((cfg2.win 3).xinj (grid2.coords t) y)
    = arrG2 (V c main_v1) (V c main_v8) (V c main_v12) (((cfg2.win 3).blk t).view.emb y)
  refine point2 (V c main_v1) (V c main_v8) (V c main_v12) (iblk2 V c 0 t) (iblk2 V c 1 t) (iblk2 V c 2 t) t.val (lt8 t)
    (fun k j => iblk2_0_apply V c t k j) (fun j d => iblk2_1_apply V c t j d) (fun p d => iblk2_2_apply V c t p d)
    ((cfg2.win 3).xinj (grid2.coords t) y) (((cfg2.win 3).blk t).view.emb y) ?_ ?_
  · show win2_3.index t (0 : Fin 2) * 1024 + 1 * (y 0).val = 1024 * t.val + (y 0).val; rw [e6]; omega
  · show win2_3.index t (1 : Fin 2) * 128 + 1 * (y 1).val = (y 1).val; rw [e7]; omega

/-- An index of the result is in point `t`'s block iff each coordinate is in the block's range on its axis. -/
theorem mem_blk2 (t : Fin cfg2.N) (i : S8192x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v13).slice (win2_3.rect t)).set ↔ _
  rw [View.set_slice_whole, Rect.mem_set_unit]
  exact Iff.rfl

/-- Row `r` of the result is in the block of point `r / 1024`, which is written back. -/
theorem cover2 (i : S8192x128.Idx) :
    ∃ t : Fin cfg2.N, (cfg2.win 3).flush t = true ∧ i ∈ ((cfg2.win 3).blk t).view.set := by
  have h0 : (i 0).val < 8192 := idx2_lt0 i
  have h1 : (i 1).val < 128 := idx2_lt1 i
  obtain ⟨t, ht⟩ : ∃ t : Fin cfg2.N, t.val = (i 0).val / 1024 :=
    ⟨⟨(i 0).val / 1024, by rw [show cfg2.N = 8 from N_2]; omega⟩, rfl⟩
  obtain ⟨-, -, -, -, -, -, e6, e7⟩ := idx_facts2 t
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; rw [e6]; omega
  | ⟨1, _⟩ => show win2_3.index t (1 : Fin 2) * 128 ≤ (i 1).val ∧ (i 1).val < win2_3.index t (1 : Fin 2) * 128 + 128; rw [e7]; omega

/-- The result array after the region is `arrG2` of the arrays the region finds. -/
theorem final2 (c : Dev nD) :
    (dat2 (F := Ideal) V c).arrAt 3 cfg2.N = arrG2 (V c main_v1) (V c main_v8) (V c main_v12) :=
  (dat2 (F := Ideal) V c).arrAt_eq_of_cover 3 (arrG2 (V c main_v1) (V c main_v8) (V c main_v12))
    (fun t _ => flushed2_eq V c t) cover2

/-- After the region, entry `(t, d)` of its result holds the count-weighted sum over the partitions of the averaged table's
    lane `d`, times the query entry. -/
theorem arr2 (c : Dev nD) (t : Fin 8192) (d : Fin 128) :
    ((dat2 (F := Ideal) V c).arrAt 3 cfg2.N : S8192x128.Idx → EReal) (ix2 t d)
      = (∑ p : Fin 1024, (hot ((V c main_v1 : S2x8192.Idx → BitVec 32) (ix2 0 t)) p + hot ((V c main_v1 : S2x8192.Idx → BitVec 32) (ix2 1 t)) p)
            * (V c main_v12 : S1024x128.Idx → EReal) (ix2 p d))
          * (V c main_v8 : S8192x128.Idx → EReal) (ix2 t d) := by
  exact congrFun (final2 V c) (ix2 t d)

end Cert.KernelIdeal.Reg2

end
-- ==== Proof.Consts.lean ====
/-
  The two float literals the programs spell beside zero, as the real numbers their bit patterns denote at the ideal
  instance: `64.0` (the divisor of both averages over the 64 key positions) and `0.015625 = 1/64` (the factor the
  kernel's program averages the key rows with).  Both are powers of two, so each pattern denotes its value exactly.
-/
import Idealize.ShloMosaic.PureOps.Ideal

noncomputable section

namespace Cert.Consts

open Idealize.ShloMosaic

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `0.015625` denotes the real 1/64. -/
theorem ofBits_inv64 : Ideal.ofBits .f32 0x3C800000#32 = ((1 / 64 : ℝ) : EReal) := by
  simp [Ideal.ofBits, Ideal.ieee, -EReal.coe_mul]; norm_num

end Cert.Consts

end
-- ==== Proof.LibERealCoe.lean ====
/-
  Real numbers inside the extended reals: the embedding commutes with finite sums, with division by a nonzero real
  as the ideal instance defines it, and with a choice between a value and zero.
-/
import Idealize.ShloMosaic.PureOps.Ideal

noncomputable section

namespace Cert.LibERealCoe

open Idealize.ShloMosaic

/-- The embedding of a finite sum of reals is the sum of the embeddings. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The ideal instance's quotient of a real by a nonzero real is the real quotient. -/
theorem div_coe_coe (x y : ℝ) (hy : y ≠ 0) : Ideal.div (x : EReal) (y : EReal) = ((x / y : ℝ) : EReal) := by
  rw [Ideal.div_coe hy, ← EReal.coe_mul, div_eq_mul_one_div x y]

/-- The embedding of "this real or zero" is "its embedding or zero". -/
theorem coe_ite_zero (c : Prop) [Decidable c] (x : ℝ) :
    (((if c then x else 0 : ℝ)) : EReal) = if c then (x : EReal) else 0 := by
  split_ifs <;> simp

end Cert.LibERealCoe

end
-- ==== Proof.KValue.lean ====
/-
  The kernel's program read as values at the ideal instance: under finite inputs and in-range partition numbers its
  result at token (b, s), lane d, is the real number `Spec.outK` of the inputs.

  Every stage is read where the stage before left it: the key averages are reals (a sum of 64 reals times 1/64), the
  weights a token gives a partition are reals (an equality test of partition numbers below 1024 is an equality of the
  numbers), each block's contraction is a real sum, the four blocks of a core add up, the averaged old states are a
  real quotient by 64, the hit counts are 0, 1 or 2, and the read-back is a real sum times the query.
-/
import proofs.«430673_j89300960019113_2_alg».proof.Proof.KHost
import proofs.«430673_j89300960019113_2_alg».proof.Proof.KReg0
import proofs.«430673_j89300960019113_2_alg».proof.Proof.KReg1
import proofs.«430673_j89300960019113_2_alg».proof.Proof.KReg2
import proofs.«430673_j89300960019113_2_alg».proof.Proof.Consts
import proofs.«430673_j89300960019113_2_alg».proof.Proof.LibERealCoe

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec Cert.KernelIdeal.Host Cert.LibERealCoe

/-- Two partition numbers below 1024 are the same 32-bit word exactly when they are the same number. -/
theorem ofNat_eq_iff (p q : Fin 1024) : BitVec.ofNat 32 p.val = BitVec.ofNat 32 q.val ↔ q = p := by
  constructor
  · intro h
    have := congrArg BitVec.toNat h
    simp only [BitVec.toNat_ofNat] at this
    have hp := p.isLt; have hq := q.isLt
    apply Fin.ext; omega
  · rintro rfl; rfl

theorem wsel_ofNat (q p : Fin 1024) (x : EReal) :
    Reg0.wsel (BitVec.ofNat 32 q.val) p x = if q = p then x else 0 := by
  unfold Reg0.wsel
  by_cases h : q = p
  · rw [if_pos h, if_pos ((ofNat_eq_iff p q).mpr h)]
  · rw [if_neg h, if_neg (fun e => h ((ofNat_eq_iff p q).mp e))]

theorem hot_ofNat (q p : Fin 1024) :
    Reg2.hot (BitVec.ofNat 32 q.val) p = if q = p then 1 else 0 := by
  unfold Reg2.hot
  by_cases h : q = p
  · rw [if_pos h, if_pos ((ofNat_eq_iff p q).mpr h)]
  · rw [if_neg h, if_neg (fun e => h ((ofNat_eq_iff p q).mp e))]

variable (m : (ℓ : Loc nD τ sig) → Buf (Elt Ideal) ℓ) (ρ : Dev nD → PrngReg) (c : Dev nD)
variable (pi : Fin 8192 → Fin 2 → Fin 1024) (kr : Fin 8192 → Fin 2 → Fin 64 → ℝ) (vr qr : Fin 8192 → Fin 128 → ℝ)
  (sr : Fin 1024 → Fin 64 → Fin 128 → ℝ)
variable (h0 : ∀ t k, (m ((c : Thread nD τ).loc main_arg0) : S4x2048x2.Idx → BitVec 32) (ix3 (tb t) (ts t) k) = BitVec.ofNat 32 (pi t k).val)
  (h1 : ∀ t k cc, (m ((c : Thread nD τ).loc main_arg1) : S4x2048x2x64.Idx → EReal) (ix4 (tb t) (ts t) k cc) = ((kr t k cc : ℝ) : EReal))
  (h2 : ∀ t d, (m ((c : Thread nD τ).loc main_arg2) : S4x2048x128.Idx → EReal) (ix3 (tb t) (ts t) d) = ((vr t d : ℝ) : EReal))
  (h3 : ∀ t d, (m ((c : Thread nD τ).loc main_arg3) : S4x2048x128.Idx → EReal) (ix3 (tb t) (ts t) d) = ((qr t d : ℝ) : EReal))
  (h4 : ∀ p cc d, (m ((c : Thread nD τ).loc main_arg4) : S1024x64x128.Idx → EReal) (ix3 p cc d) = ((sr p cc d : ℝ) : EReal))

include h1 in
/-- The key average of (token, slot), as region 0 finds it, is the real `ksum`. -/
theorem ksum_value (k : Fin 2) (t : Fin 8192) :
    (V1 m ρ c main_v6 : S2x8192.Idx → EReal) (ix2 k t) = ((ksum kr t k : ℝ) : EReal) := by
  rw [V1_v6, Cert.Consts.ofBits_inv64]
  unfold ksum
  rw [EReal.coe_mul, coe_sum]
  exact congrArg (· * _) (Finset.sum_congr rfl fun cc _ => h1 t k cc)

include h0 h1 h2 in
/-- One block's contribution is the real `deltaK`. -/
theorem delta_value (cc : Fin 2) (i : Fin 4) (p : Fin 1024) (d : Fin 128) :
    Reg0.delta0 (V1 m ρ) c cc i p d = ((deltaK pi kr vr cc i p d : ℝ) : EReal) := by
  unfold Reg0.delta0 deltaK
  rw [coe_sum]
  refine Finset.sum_congr rfl fun j _ => ?_
  rw [V1_v1, V1_v1, h0, h0, ksum_value m ρ c kr h1, ksum_value m ρ c kr h1, V1_v7, h2, wsel_ofNat, wsel_ofNat]
  unfold wK
  rw [EReal.coe_mul, EReal.coe_add, coe_ite_zero, coe_ite_zero]

include h0 h1 h2 in
/-- A core's partial table is the real `accK`. -/
theorem acc_value (cc : Fin 2) (p : Fin 1024) (d : Fin 128) :
    R0 m ρ c (ix3 cc p d) = ((accK pi kr vr cc p d : ℝ) : EReal) := by
  show ((dat0 (F := Ideal) (V1 m ρ) c).arrAt 3 cfg0.N : S2x1024x128.Idx → EReal) (ix3 cc p d) = _
  rw [Reg0.arr0]
  rw [delta_value m ρ c pi kr vr h0 h1 h2, delta_value m ρ c pi kr vr h0 h1 h2, delta_value m ρ c pi kr vr h0 h1 h2,
    delta_value m ρ c pi kr vr h0 h1 h2]
  unfold accK
  rw [EReal.coe_add, EReal.coe_add, EReal.coe_add]

include h4 in
/-- The averaged old states are the real quotient. -/
theorem mean_value (p : Fin 1024) (d : Fin 128) :
    R1 m ρ c (ix2 p d) = (((∑ cc : Fin 64, sr p cc d) / 64 : ℝ) : EReal) := by
  show ((dat1 (F := Ideal) (V3 m ρ) c).arrAt 1 cfg1.N : S1024x128.Idx → EReal) (ix2 p d) = _
  rw [Reg1.arr1, Cert.Consts.ofBits_64, V3_arg4]
  rw [← div_coe_coe _ _ (by norm_num : (64 : ℝ) ≠ 0), coe_sum]
  exact congrArg (Ideal.div · _) (Finset.sum_congr rfl fun cc _ => h4 p cc d)

include h0 h1 h2 h4 in
/-- The table region 2 reads is the real `msK`. -/
theorem ms_value (p : Fin 1024) (d : Fin 128) :
    (V5 m ρ c main_v12 : S1024x128.Idx → EReal) (ix2 p d) = ((msK pi kr vr sr p d : ℝ) : EReal) := by
  rw [V5_v12, mean_value m ρ c sr h4]
  unfold msK
  rw [EReal.coe_add, coe_sum]
  exact congrArg (_ + ·) (Finset.sum_congr rfl fun cc _ => acc_value m ρ c pi kr vr h0 h1 h2 cc p d)

include h0 h1 h2 h3 h4 in
/-- The kernel's program's result at token `(b, s)`, lane `d`, is the real `outK`. -/
theorem kernel_value (b : Fin 4) (s : Fin 2048) (d : Fin 128) :
    (W7 m ρ c (Proc.devRef .tc main_v14) : S4x2048x128.Idx → EReal) (ix3 b s d)
      = ((outK pi kr vr qr sr (tok b s) d : ℝ) : EReal) := by
  rw [W7_v14]
  show ((dat2 (F := Ideal) (V5 m ρ) c).arrAt 3 cfg2.N : S8192x128.Idx → EReal) (ix2 (tok b s) d) = _
  rw [Reg2.arr2]
  rw [V5_v1, V5_v8, V1_v1, V1_v1, h0, h0, V1_v8, h3]
  unfold outK
  rw [EReal.coe_mul, coe_sum]
  refine congrArg (· * _) (Finset.sum_congr rfl fun p _ => ?_)
  rw [ms_value m ρ c pi kr vr sr h0 h1 h2 h4, hot_ofNat, hot_ofNat]
  unfold gK
  rw [EReal.coe_mul, EReal.coe_add, coe_ite_zero, coe_ite_zero, EReal.coe_one]

end Cert.KernelIdeal.KValue

end
-- ==== Proof.LibScatterRows3.lean ====
/-
  A scatter-add of rows, read at an index. The operand is a table of P rows of shape [C, D], the scatter indices are N
  row numbers (an [N, 1] array of words) and the updates are N rows of shape [C, D]: update row n is added to the
  operand row its index names, entry by entry; an index outside [0, P), read signed, names no row and its update is
  dropped. So at the ideal values the result at (p, c, e) is the operand there plus the sum, over the rows n whose
  index is p, of update (n, c, e).
-/
import Idealize.ShloMosaic.Lib.ValueIdx
import Idealize.ShloMosaic.PureOps.Ideal.Laws

noncomputable section

open scoped BigOperators

namespace Cert.LibScatterRows3

open Idealize.ShloMosaic Idealize.ShloMosaic.ValueIdx

/-- The dimension numbers of a row scatter. -/
abbrev rowsDims (P C D N : Nat)
    (wf : ScatterDims.WF ⟨3, ![P, C, D]⟩ ⟨2, ![N, 1]⟩ ⟨3, ![N, C, D]⟩ [1, 2] [0] [0] 1) :
    ScatterDims ⟨3, ![P, C, D]⟩ ⟨2, ![N, 1]⟩ ⟨3, ![N, C, D]⟩ where
  updateWindowDims := [1, 2]
  insertedWindowDims := [0]
  scatterDimsToOperandDims := [0]
  indexVectorDim := 1
  wf := wf

variable {P C D N w : Nat}
  (wf : ScatterDims.WF ⟨3, ![P, C, D]⟩ ⟨2, ![N, 1]⟩ ⟨3, ![N, C, D]⟩ [1, 2] [0] [0] 1)

/-- On the row axis the window of update row `n` starts at its index, read signed. -/
theorem start_0 (n : Fin N) (c' : Fin C) (e' : Fin D) (idx : IVec ⟨2, ![N, 1]⟩ w) :
    (rowsDims P C D N wf).start (ix3 n c' e') idx 0 = (idx (ix2 n 0)).toInt := by
  unfold ScatterDims.start
  rw [dif_pos (show (0 : Fin 3) ∈ (rowsDims P C D N wf).scatterDimsToOperandDims from List.mem_singleton.mpr rfl)]
  have hsi : (rowsDims P C D N wf).siIdx (ix3 n c' e') ⟨List.idxOf (0 : Fin 3) (rowsDims P C D N wf).scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- On the two entry axes every window starts at `0`. -/
theorem start_1 (j : (⟨3, ![N, C, D]⟩ : Shape).Idx) (idx : IVec ⟨2, ![N, 1]⟩ w) :
    (rowsDims P C D N wf).start j idx 1 = 0 := by
  unfold ScatterDims.start
  rw [dif_neg (show ¬(1 : Fin 3) ∈ (rowsDims P C D N wf).scatterDimsToOperandDims from
    (show ¬(1 : Fin 3) ∈ ([0] : List (Fin 3)) by decide))]

/-- On the two entry axes every window starts at `0`. -/
theorem start_2 (j : (⟨3, ![N, C, D]⟩ : Shape).Idx) (idx : IVec ⟨2, ![N, 1]⟩ w) :
    (rowsDims P C D N wf).start j idx 2 = 0 := by
  unfold ScatterDims.start
  rw [dif_neg (show ¬(2 : Fin 3) ∈ (rowsDims P C D N wf).scatterDimsToOperandDims from
    (show ¬(2 : Fin 3) ∈ ([0] : List (Fin 3)) by decide))]

/-- The row axis is inserted: an update has no coordinate inside its window there. -/
theorem window_0 (j : (⟨3, ![N, C, D]⟩ : Shape).Idx) : (rowsDims P C D N wf).window j 0 = 0 := by
  unfold ScatterDims.window
  rw [dif_neg (show ¬(0 : Fin 3) ∈ (rowsDims P C D N wf).sKept from
    (show ¬(0 : Fin 3) ∈ (List.finRange 3).filter (· ∉ ([0] : List (Fin 3))) by decide))]

/-- On the entry axes the coordinate inside the window is the update's own. -/
theorem window_1 (n : Fin N) (c' : Fin C) (e' : Fin D) : (rowsDims P C D N wf).window (ix3 n c' e') 1 = c'.val := by
  unfold ScatterDims.window
  rw [dif_pos (show (1 : Fin 3) ∈ (rowsDims P C D N wf).sKept from
    (show (1 : Fin 3) ∈ (List.finRange 3).filter (· ∉ ([0] : List (Fin 3))) by decide))]
  rfl

/-- On the entry axes the coordinate inside the window is the update's own. -/
theorem window_2 (n : Fin N) (c' : Fin C) (e' : Fin D) : (rowsDims P C D N wf).window (ix3 n c' e') 2 = e'.val := by
  unfold ScatterDims.window
  rw [dif_pos (show (2 : Fin 3) ∈ (rowsDims P C D N wf).sKept from
    (show (2 : Fin 3) ∈ (List.finRange 3).filter (· ∉ ([0] : List (Fin 3))) by decide))]
  rfl

/-- Update `(n, c', e')` lands at `(p, c, e)` exactly when its index, read signed, is `p` and the window coordinates agree. -/
theorem resultIdx?_rows_iff (n : Fin N) (c' : Fin C) (e' : Fin D) (idx : IVec ⟨2, ![N, 1]⟩ w)
    (p : Fin P) (c : Fin C) (e : Fin D) :
    (rowsDims P C D N wf).resultIdx? (ix3 n c' e') idx = some (ix3 p c e)
      ↔ (idx (ix2 n 0)).toInt = (p.val : Int) ∧ c' = c ∧ e' = e := by
  have hs0 := start_0 wf n c' e' idx
  have hs1 := start_1 wf (ix3 n c' e') idx
  have hs2 := start_2 wf (ix3 n c' e') idx
  have hw0 := window_0 wf (ix3 n c' e')
  have hw1 := window_1 wf n c' e'
  have hw2 := window_2 wf n c' e'
  have hp := p.isLt
  have hc := c'.isLt
  have he := e'.isLt
  unfold ScatterDims.resultIdx?
  constructor
  · intro h
    split at h
    · rename_i hall
      have hf := Option.some.inj h
      have h0 : ((rowsDims P C D N wf).start (ix3 n c' e') idx 0
          + ((rowsDims P C D N wf).window (ix3 n c' e') 0 : Int)).toNat = p.val := congrArg (fun f => (f 0).val) hf
      have h1 : ((rowsDims P C D N wf).start (ix3 n c' e') idx 1
          + ((rowsDims P C D N wf).window (ix3 n c' e') 1 : Int)).toNat = c.val := congrArg (fun f => (f 1).val) hf
      have h2 : ((rowsDims P C D N wf).start (ix3 n c' e') idx 2
          + ((rowsDims P C D N wf).window (ix3 n c' e') 2 : Int)).toNat = e.val := congrArg (fun f => (f 2).val) hf
      have a0 := (hall 0).1
      rw [hs0, hw0] at h0 a0
      rw [hs1, hw1] at h1
      rw [hs2, hw2] at h2
      exact ⟨by omega, Fin.ext (by omega), Fin.ext (by omega)⟩
    · exact absurd h (by simp)
  · rintro ⟨h0, rfl, rfl⟩
    have hall : ∀ a, 0 ≤ (rowsDims P C D N wf).start (ix3 n c' e') idx a + (rowsDims P C D N wf).window (ix3 n c' e') a
        ∧ (rowsDims P C D N wf).start (ix3 n c' e') idx a + (rowsDims P C D N wf).window (ix3 n c' e') a
          < (⟨3, ![P, C, D]⟩ : Shape).size a := by
      intro a
      match a with
      | ⟨0, _⟩ =>
        show 0 ≤ (rowsDims P C D N wf).start (ix3 n c' e') idx 0 + ((rowsDims P C D N wf).window (ix3 n c' e') 0 : Int)
          ∧ (rowsDims P C D N wf).start (ix3 n c' e') idx 0 + ((rowsDims P C D N wf).window (ix3 n c' e') 0 : Int) < (P : Int)
        rw [hs0, hw0, h0]; omega
      | ⟨1, _⟩ =>
        show 0 ≤ (rowsDims P C D N wf).start (ix3 n c' e') idx 1 + ((rowsDims P C D N wf).window (ix3 n c' e') 1 : Int)
          ∧ (rowsDims P C D N wf).start (ix3 n c' e') idx 1 + ((rowsDims P C D N wf).window (ix3 n c' e') 1 : Int) < (C : Int)
        rw [hs1, hw1]; omega
      | ⟨2, _⟩ =>
        show 0 ≤ (rowsDims P C D N wf).start (ix3 n c' e') idx 2 + ((rowsDims P C D N wf).window (ix3 n c' e') 2 : Int)
          ∧ (rowsDims P C D N wf).start (ix3 n c' e') idx 2 + ((rowsDims P C D N wf).window (ix3 n c' e') 2 : Int) < (D : Int)
        rw [hs2, hw2]; omega
    rw [dif_pos hall]
    congr 1
    funext a
    refine Fin.ext ?_
    match a with
    | ⟨0, _⟩ =>
      show ((rowsDims P C D N wf).start (ix3 n c' e') idx 0 + ((rowsDims P C D N wf).window (ix3 n c' e') 0 : Int)).toNat = p.val
      rw [hs0, hw0, h0]; omega
    | ⟨1, _⟩ =>
      show ((rowsDims P C D N wf).start (ix3 n c' e') idx 1 + ((rowsDims P C D N wf).window (ix3 n c' e') 1 : Int)).toNat = c'.val
      rw [hs1, hw1]; omega
    | ⟨2, _⟩ =>
      show ((rowsDims P C D N wf).start (ix3 n c' e') idx 2 + ((rowsDims P C D N wf).window (ix3 n c' e') 2 : Int)).toNat = e'.val
      rw [hs2, hw2]; omega

/-- THE ROW SCATTER-ADD READ AT `(p, c, e)`: the operand there plus the updates `(n, c, e)` of the rows `n` whose index,
    read signed, is `p` (an index outside `[0, P)` names no row). -/
theorem hostScatterAdd_rows (x : (⟨3, ![P, C, D]⟩ : Shape).Idx → EReal) (idx : IVec ⟨2, ![N, 1]⟩ w)
    (upd : (⟨3, ![N, C, D]⟩ : Shape).Idx → EReal) (p : Fin P) (c : Fin C) (e : Fin D) :
    Ideal.hostScatterAdd (rowsDims P C D N wf) x idx upd (ix3 p c e)
      = x (ix3 p c e) + ∑ n : Fin N, if (idx (ix2 n 0)).toInt = (p.val : Int) then upd (ix3 n c e) else 0 := by
  unfold Ideal.hostScatterAdd
  congr 1
  rw [← Finset.sum_filter]
  refine Finset.sum_nbij' (fun j => (j 0 : Fin N)) (fun n => ix3 n c e) ?_ ?_ ?_ ?_ ?_
  · intro j hj
    obtain ⟨n, c', e', rfl⟩ : ∃ (n : Fin N) (c' : Fin C) (e' : Fin D), j = ix3 n c' e' := ⟨j 0, j 1, j 2, eq_ix3 j⟩
    exact Finset.mem_filter.mpr ⟨Finset.mem_univ _,
      ((resultIdx?_rows_iff wf n c' e' idx p c e).mp (Finset.mem_filter.mp hj).2).1⟩
  · intro n hn
    exact Finset.mem_filter.mpr ⟨Finset.mem_univ _,
      (resultIdx?_rows_iff wf n c e idx p c e).mpr ⟨(Finset.mem_filter.mp hn).2, rfl, rfl⟩⟩
  · intro j hj
    obtain ⟨n, c', e', rfl⟩ : ∃ (n : Fin N) (c' : Fin C) (e' : Fin D), j = ix3 n c' e' := ⟨j 0, j 1, j 2, eq_ix3 j⟩
    obtain ⟨_, rfl, rfl⟩ := (resultIdx?_rows_iff wf n c' e' idx p c e).mp (Finset.mem_filter.mp hj).2
    rfl
  · intro n hn
    rfl
  · intro j hj
    obtain ⟨n, c', e', rfl⟩ : ∃ (n : Fin N) (c' : Fin C) (e' : Fin D), j = ix3 n c' e' := ⟨j 0, j 1, j 2, eq_ix3 j⟩
    obtain ⟨_, rfl, rfl⟩ := (resultIdx?_rows_iff wf n c' e' idx p c e).mp (Finset.mem_filter.mp hj).2
    rfl

end Cert.LibScatterRows3

end
-- ==== Proof.LibTakeRows4.lean ====
/-
  A gather of rows, read at an index. The operand is a table of P rows of D entries, the start indices are a
  [B, S, K, 1] array of row numbers and the result has shape [B, S, K, D]: result row (b, s, k) is the operand row its
  start index names, the index read as a signed integer and clamped into [0, P - 1]. When the index is already a row
  number the clamp does nothing.
-/
import Idealize.ShloMosaic.Lib.ValueIdx

noncomputable section

namespace Cert.LibTakeRows4

open Idealize.ShloMosaic Idealize.ShloMosaic.ValueIdx

/-- The dimension numbers of a row gather. -/
abbrev takeRowsDims (P D B S K : Nat)
    (wf : GatherDims.WF ⟨2, ![P, D]⟩ ⟨4, ![B, S, K, 1]⟩ ⟨4, ![B, S, K, D]⟩ [3] [0] [] [0] [] 3 ![1, D]) :
    GatherDims ⟨2, ![P, D]⟩ ⟨4, ![B, S, K, 1]⟩ ⟨4, ![B, S, K, D]⟩ where
  offsetDims := [3]
  collapsedSliceDims := [0]
  operandBatchingDims := []
  startIndicesBatchingDims := []
  startIndexMap := [0]
  indexVectorDim := 3
  sliceSizes := ![1, D]
  wf := wf

variable {α : Type}

/-- The gather read at `(b, s, k, e)`: the operand at row `idx[b, s, k, 0]`, read signed and clamped into
    `[0, P − 1]`, lane `e`. -/
theorem gather_takeRows_apply {P D B S K w : Nat} (hP : 0 < P)
    (wf : GatherDims.WF ⟨2, ![P, D]⟩ ⟨4, ![B, S, K, 1]⟩ ⟨4, ![B, S, K, D]⟩ [3] [0] [] [0] [] 3 ![1, D])
    (x : (⟨2, ![P, D]⟩ : Shape).Idx → α) (idx : IVec ⟨4, ![B, S, K, 1]⟩ w)
    (b : Fin B) (s : Fin S) (k : Fin K) (e : Fin D) :
    Host.gather (takeRowsDims P D B S K wf) x idx (ix4 b s k e)
      = x (ix2 ⟨min (idx (ix4 b s k 0)).toInt.toNat (P - 1), by omega⟩ e) := by
  unfold Host.gather
  congr 1
  funext a
  refine Fin.ext ?_
  match a with
  | ⟨0, _⟩ =>
    show (takeRowsDims P D B S K wf).start (ix4 b s k e) idx 0 + (takeRowsDims P D B S K wf).batchCoord (ix4 b s k e) 0
      + (takeRowsDims P D B S K wf).offCoord (ix4 b s k e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims P D B S K wf).startIndexMap from List.mem_singleton.mpr rfl)]
    have hsi : (takeRowsDims P D B S K wf).siIdx (ix4 b s k e) ⟨List.idxOf (0 : Fin 2) (takeRowsDims P D B S K wf).startIndexMap,
        List.idxOf_lt_length_iff.2 (List.mem_singleton.mpr rfl)⟩ = ix4 b s k 0 := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show (takeRowsDims P D B S K wf).start (ix4 b s k e) idx 1 + (takeRowsDims P D B S K wf).batchCoord (ix4 b s k e) 1
      + (takeRowsDims P D B S K wf).offCoord (ix4 b s k e) 1 = e.val
    rw [GatherDims.batchCoord_eq_zero _ _ _ List.not_mem_nil]
    have h1 : (takeRowsDims P D B S K wf).start (ix4 b s k e) idx 1 = 0 := by
      unfold GatherDims.start
      rw [dif_neg (show ¬(1 : Fin 2) ∈ (takeRowsDims P D B S K wf).startIndexMap from
        (show ¬(1 : Fin 2) ∈ ([0] : List (Fin 2)) by decide))]
    have h2 : (takeRowsDims P D B S K wf).offCoord (ix4 b s k e) 1 = e.val := by
      unfold GatherDims.offCoord
      rw [dif_pos (show (1 : Fin 2) ∈ (takeRowsDims P D B S K wf).sKept from
        (show (1 : Fin 2) ∈ (List.finRange 2).filter (· ∉ ([0] : List (Fin 2)) ++ []) by decide))]
      rfl
    rw [h1, h2, Nat.zero_add]

/-- When the start index, read signed, is a row number `r` of the operand, the clamp does nothing: the gather reads row `r`. -/
theorem gather_takeRows_of_inRange {P D B S K w : Nat}
    (wf : GatherDims.WF ⟨2, ![P, D]⟩ ⟨4, ![B, S, K, 1]⟩ ⟨4, ![B, S, K, D]⟩ [3] [0] [] [0] [] 3 ![1, D])
    (x : (⟨2, ![P, D]⟩ : Shape).Idx → α) (idx : IVec ⟨4, ![B, S, K, 1]⟩ w)
    (b : Fin B) (s : Fin S) (k : Fin K) (e : Fin D) (r : Fin P) (hr : (idx (ix4 b s k 0)).toInt = (r.val : Int)) :
    Host.gather (takeRowsDims P D B S K wf) x idx (ix4 b s k e) = x (ix2 r e) := by
  have hP : 0 < P := Nat.lt_of_le_of_lt (Nat.zero_le _) r.isLt
  rw [gather_takeRows_apply hP wf]
  refine congrArg (fun q => x (ix2 q e)) (Fin.ext ?_)
  show min (idx (ix4 b s k 0)).toInt.toNat (P - 1) = r.val
  rw [hr]
  have := r.isLt
  omega

end Cert.LibTakeRows4

end
-- ==== Proof.RefValue.lean ====
/-
  The reference program read as values at the ideal instance: under finite inputs and in-range partition numbers its
  result at token (b, s), lane d, is the real number `Spec.outR` of the inputs.

  The program forms the outer products of key rows and value rows, flattens them to one row per (token, slot) pair,
  adds each row into the table row its partition number names (a scatter-add into zeros, read at an index in
  LibScatterRows3), adds the old states, averages over the 64 key positions, reads the averaged table back at the
  partition numbers (a row gather, read at an index in LibTakeRows4; a partition number in [0, 1024) is neither
  wrapped nor clamped), multiplies by the query row and sums the two slots. Every entry is a real, so each stage is
  the coercion of the corresponding real expression of Spec.
-/
import proofs.«430673_j89300960019113_2_alg».proof.Proof.Gen.ReferenceIdeal.Read
import proofs.«430673_j89300960019113_2_alg».proof.Proof.Spec
import proofs.«430673_j89300960019113_2_alg».proof.Proof.LibScatterRows3
import proofs.«430673_j89300960019113_2_alg».proof.Proof.LibTakeRows4
import proofs.«430673_j89300960019113_2_alg».proof.Proof.LibERealCoe
import proofs.«430673_j89300960019113_2_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Spec
open Cert.LibScatterRows3 Cert.LibTakeRows4 Cert.LibERealCoe Cert.Consts

/-- A partition number's word, read signed, is the number. -/
theorem toInt_part (v : Fin 1024) : (BitVec.ofNat 32 v.val).toInt = (v.val : Int) := by
  have hv := v.isLt
  have h1 : (BitVec.ofNat 32 v.val).toNat = v.val := by rw [BitVec.toNat_ofNat]; omega
  rw [BitVec.toInt_eq_toNat_of_lt (by rw [h1]; omega), h1]

/-- Wrapping a negative index by the table's height leaves a non-negative word alone. -/
theorem select_nonneg (x : BitVec 32) (hx : 0 ≤ x.toInt) :
    Scalar.select (IntOp.cmpi .slt x 0#32) (IntOp.addi x 1024#32) x = x := by
  have h : IntOp.cmpi .slt x 0#32 = 0#1 := by
    have hn : ¬ x.toInt < 0 := by omega
    simp [IntOp.cmpi, BitVec.slt, hn]
  rw [h, select_zero]

section
variable (a0 : S4x2048x2.Idx → BitVec 32) (a1 : S4x2048x2x64.Idx → EReal) (a2 a3 : S4x2048x128.Idx → EReal)
    (a4 : S1024x64x128.Idx → EReal)
    (pi : Fin 8192 → Fin 2 → Fin 1024) (kr : Fin 8192 → Fin 2 → Fin 64 → ℝ) (vr qr : Fin 8192 → Fin 128 → ℝ)
    (sr : Fin 1024 → Fin 64 → Fin 128 → ℝ)
    (h0 : ∀ t k, a0 (ix3 (tb t) (ts t) k) = BitVec.ofNat 32 (pi t k).val)
    (h1 : ∀ t k cc, a1 (ix4 (tb t) (ts t) k cc) = ((kr t k cc : ℝ) : EReal))
    (h2 : ∀ t d, a2 (ix3 (tb t) (ts t) d) = ((vr t d : ℝ) : EReal))
    (h3 : ∀ t d, a3 (ix3 (tb t) (ts t) d) = ((qr t d : ℝ) : EReal))
    (h4 : ∀ p cc d, a4 (ix3 p cc d) = ((sr p cc d : ℝ) : EReal))

include h0 in
/-- The flattened partition numbers: entry `n` is the number of pair `n`. -/
theorem flatIdx_at (n : Fin 16384) :
    val_main_v8 (F := Ideal) a0 (ix2 n 0) = BitVec.ofNat 32 (pi (tokOf n) (slotOf n)).val := by
  rw [val_main_v8_apply, val_main_v5_apply]
  have hi : idx_main_v5 (idx_main_v8 (ix2 n (0 : Fin 1))) = ix3 (tb (tokOf n)) (ts (tokOf n)) (slotOf n) := by
    funext a; refine Fin.ext ?_
    have hn := n.isLt
    match a with
    | ⟨0, _⟩ => show n.val / 4096 = n.val / 2 / 2048; omega
    | ⟨1, _⟩ => show n.val / 2 % 2048 = n.val / 2 % 2048; rfl
    | ⟨2, _⟩ => show n.val % 2 = n.val % 2; rfl
  rw [hi, h0]

include h1 h2 in
/-- The flattened outer products: entry `(n, c, d)` is key entry `c` of pair `n` times value entry `d` of its token. -/
theorem outer_at (n : Fin 16384) (c : Fin 64) (d : Fin 128) :
    val_main_v6 (F := Ideal) a1 a2 (ix3 n c d) = ((kr (tokOf n) (slotOf n) c * vr (tokOf n) d : ℝ) : EReal) := by
  rw [val_main_v6_apply, val_main_v4_apply, val_main_v2_apply, val_main_v0_apply, val_main_v3_apply, val_main_v1_apply]
  have hn := n.isLt
  have hc := c.isLt
  have hd := d.isLt
  have hi1 : idx_main_v0 (idx_main_v2 (idx_main_v6 (ix3 n c d))) = ix4 (tb (tokOf n)) (ts (tokOf n)) (slotOf n) c := by
    funext a; refine Fin.ext ?_
    match a with
    | ⟨0, _⟩ => show ((n.val * 64 + c.val) * 128 + d.val) / 33554432 = n.val / 2 / 2048; omega
    | ⟨1, _⟩ => show ((n.val * 64 + c.val) * 128 + d.val) / 16384 % 2048 = n.val / 2 % 2048; omega
    | ⟨2, _⟩ => show ((n.val * 64 + c.val) * 128 + d.val) / 8192 % 2 = n.val % 2; omega
    | ⟨3, _⟩ => show ((n.val * 64 + c.val) * 128 + d.val) / 128 % 64 = c.val; omega
  have hi2 : idx_main_v1 (idx_main_v3 (idx_main_v6 (ix3 n c d))) = ix3 (tb (tokOf n)) (ts (tokOf n)) d := by
    funext a; refine Fin.ext ?_
    match a with
    | ⟨0, _⟩ => show ((n.val * 64 + c.val) * 128 + d.val) / 33554432 = n.val / 2 / 2048; omega
    | ⟨1, _⟩ => show ((n.val * 64 + c.val) * 128 + d.val) / 16384 % 2048 = n.val / 2 % 2048; omega
    | ⟨2, _⟩ => show ((n.val * 64 + c.val) * 128 + d.val) % 128 = d.val; omega
  rw [hi1, hi2, h1, h2, Ideal.mulf_def, ← EReal.coe_mul]

include h0 h1 h2 in
/-- The segment sum at `(p, c, d)` is the real update `deltaR`. -/
theorem delta_at (p : Fin 1024) (c : Fin 64) (d : Fin 128) :
    val_main_v9 (F := Ideal) a0 a1 a2 (ix3 p c d) = ((deltaR pi kr vr p c d : ℝ) : EReal) := by
  have hsc : val_main_v9 (F := Ideal) a0 a1 a2 (ix3 p c d)
      = val_main_v7 (F := Ideal) (ix3 p c d) + ∑ n : Fin 16384,
          if (val_main_v8 (F := Ideal) a0 (ix2 n 0)).toInt = (p.val : Int) then val_main_v6 (F := Ideal) a1 a2 (ix3 n c d) else 0 :=
    hostScatterAdd_rows Facts₀.scatter_S1024x64x128_S16384x1_S16384x64x128_12_0_0_1_wf _ _ _ p c d
  rw [hsc, val_main_v7_apply, val_main_cst_apply, Ideal.ofBits_def, Ideal.ofBits_zero_f32, zero_add]
  unfold deltaR
  rw [coe_sum]
  refine Finset.sum_congr rfl fun n _ => ?_
  rw [flatIdx_at a0 pi h0, outer_at a1 a2 kr vr h1 h2, toInt_part]
  by_cases hp : pi (tokOf n) (slotOf n) = p
  · rw [if_pos hp, if_pos (by rw [hp])]
  · rw [if_neg hp, if_neg (fun h => hp (Fin.ext (by exact_mod_cast h))), EReal.coe_zero]

include h0 h1 h2 h4 in
/-- The averaged table at `(p, d)` is the real mean `msR`. -/
theorem mean_at (p : Fin 1024) (d : Fin 128) :
    val_main_v13 (F := Ideal) a0 a1 a2 a4 (ix2 p d) = ((msR pi kr vr sr p d : ℝ) : EReal) := by
  have hrow : ∀ k : Fin 64, val_main_v10 (F := Ideal) a0 a1 a2 a4 (idx_main_v11 (ix2 p d) k)
      = ((sr p k d + deltaR pi kr vr p k d : ℝ) : EReal) := by
    intro k
    have hi : idx_main_v11 (ix2 p d) k = ix3 p k d := by
      funext a; refine Fin.ext ?_
      match a with
      | ⟨0, _⟩ => rfl
      | ⟨1, _⟩ => rfl
      | ⟨2, _⟩ => rfl
    rw [hi, val_main_v10_apply, Ideal.addf_def, delta_at a0 a1 a2 pi kr vr h0 h1 h2, h4, ← EReal.coe_add]
  rw [val_main_v13_apply, val_main_v11_apply, val_main_v12_apply, val_main_cst_1_apply, val_main_cst_0_apply,
    Ideal.ofBits_def, Ideal.ofBits_def, Ideal.ofBits_zero_f32, zero_add, ofBits_64, Ideal.hostDivf_def,
    Ideal.div_coe (by norm_num),
    Finset.sum_congr rfl (fun k _ => hrow k), ← coe_sum, ← EReal.coe_mul, mul_one_div]
  rfl

include h0 in
/-- The start index of result row `(b, s, k)` is the partition number of that slot. -/
theorem startIdx_at (b : Fin 4) (s : Fin 2048) (k : Fin 2) :
    val_main_v19 (F := Ideal) a0 (ix4 b s k 0) = BitVec.ofNat 32 (pi (tok b s) k).val := by
  rw [val_main_v19_apply, val_main_v18_apply, val_main_v15_apply, val_main_v17_apply, val_main_v14_apply,
    val_main_v16_apply, val_main_c_apply, val_main_c_2_apply]
  have hi : idx_main_v19 (ix4 b s k (0 : Fin 1)) = ix3 b s k := by
    funext a; refine Fin.ext ?_
    match a with
    | ⟨0, _⟩ => rfl
    | ⟨1, _⟩ => rfl
    | ⟨2, _⟩ => rfl
  have hx := h0 (tok b s) k
  rw [tb_tok, ts_tok] at hx
  rw [hi, hx]
  exact select_nonneg _ (by rw [toInt_part]; omega)

include h0 h1 h2 h4 in
/-- The gathered row `(b, s, k)` at lane `d` is the mean of the partition that slot names. -/
theorem gathered_at (b : Fin 4) (s : Fin 2048) (k : Fin 2) (d : Fin 128) :
    val_main_v20 (F := Ideal) a0 a1 a2 a4 (ix4 b s k d) = ((msR pi kr vr sr (pi (tok b s) k) d : ℝ) : EReal) := by
  have hg : val_main_v20 (F := Ideal) a0 a1 a2 a4 (ix4 b s k d)
      = val_main_v13 (F := Ideal) a0 a1 a2 a4 (ix2 (pi (tok b s) k) d) :=
    gather_takeRows_of_inRange Facts₀.gather_S1024x128_S4x2048x2x1_S4x2048x2x128_3_0_n_n_0_3_1128_wf _ _ b s k d
      (pi (tok b s) k) (by rw [startIdx_at a0 pi h0, toInt_part])
  rw [hg, mean_at a0 a1 a2 a4 pi kr vr sr h0 h1 h2 h4]

end

/-- The reference's result at token `(b, s)`, lane `d`, when the float inputs are the reals `kr`, `vr`, `qr`, `sr` and
    the partition numbers are `pi`. -/
theorem ref_value (a0 : S4x2048x2.Idx → BitVec 32) (a1 : S4x2048x2x64.Idx → EReal) (a2 a3 : S4x2048x128.Idx → EReal)
    (a4 : S1024x64x128.Idx → EReal)
    (pi : Fin 8192 → Fin 2 → Fin 1024) (kr : Fin 8192 → Fin 2 → Fin 64 → ℝ) (vr qr : Fin 8192 → Fin 128 → ℝ)
    (sr : Fin 1024 → Fin 64 → Fin 128 → ℝ)
    (h0 : ∀ t k, a0 (ix3 (tb t) (ts t) k) = BitVec.ofNat 32 (pi t k).val)
    (h1 : ∀ t k cc, a1 (ix4 (tb t) (ts t) k cc) = ((kr t k cc : ℝ) : EReal))
    (h2 : ∀ t d, a2 (ix3 (tb t) (ts t) d) = ((vr t d : ℝ) : EReal))
    (h3 : ∀ t d, a3 (ix3 (tb t) (ts t) d) = ((qr t d : ℝ) : EReal))
    (h4 : ∀ p cc d, a4 (ix3 p cc d) = ((sr p cc d : ℝ) : EReal))
    (b : Fin 4) (s : Fin 2048) (d : Fin 128) :
    val_main_v24 (F := Ideal) a0 a1 a2 a3 a4 (ix3 b s d) = ((outR pi kr vr qr sr (tok b s) d : ℝ) : EReal) := by
  rw [val_main_v24_apply, val_main_cst_3_apply, Ideal.ofBits_def, Ideal.ofBits_zero_f32, zero_add]
  unfold outR
  rw [coe_sum]
  refine Finset.sum_congr rfl fun k _ => ?_
  have hi : idx_main_v24 (ix3 b s d) k = ix4 b s k d := by
    funext a; refine Fin.ext ?_
    match a with
    | ⟨0, _⟩ => rfl
    | ⟨1, _⟩ => rfl
    | ⟨2, _⟩ => rfl
    | ⟨3, _⟩ => rfl
  have hi2 : idx_main_v21 (idx_main_v22 (ix4 b s k d)) = ix3 b s d := by
    funext a; refine Fin.ext ?_
    match a with
    | ⟨0, _⟩ => rfl
    | ⟨1, _⟩ => rfl
    | ⟨2, _⟩ => rfl
  have hq := h3 (tok b s) d
  rw [tb_tok, ts_tok] at hq
  rw [hi, val_main_v23_apply, Ideal.mulf_def, gathered_at a0 a1 a2 a4 pi kr vr sr h0 h1 h2 h4, val_main_v22_apply,
    val_main_v21_apply, hi2, hq, ← EReal.coe_mul]

end Cert.ReferenceIdeal.RefValue

end
-- ==== Proof.PreFacts.lean ====
/-
  What the precondition says of the inputs: every float entry is a real number, every partition number lies in [0, 1024).
-/
import proofs.«430673_j89300960019113_2_alg».proof.Pre_finite_inputs
import proofs.«430673_j89300960019113_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

open Idealize.ShloMosaic Idealize.ShloMosaic.ValueIdx

namespace Cert.PreFacts

open Cert.Pre_finite_inputs

variable [Cert.Pre_finite_inputs.Facts]

/-- The scalar shape has one index. -/
instance subsingleton_S_ : Subsingleton S_.Idx := ⟨fun a b => funext fun d => d.elim0⟩

/-- The bit pattern 0x7F800000 denotes +∞. -/
theorem inf_bits : Ideal.ofBits .f32 0x7F800000#32 = ⊤ := by simp [Ideal.ofBits, Ideal.ieee]

/-- On the extended reals, max x (-x) < ⊤ rules out both infinities: x is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The element test |x| < +∞, as the precondition prints it, read at the extended reals. -/
theorem real_of_cmp (x : Ideal .f32)
    (h : FloatOps.cmpf .olt (FloatOps.hostAbsf x) (FloatOps.ofBits (F := Ideal) .f32 0x7F800000#32) = 1#1) :
    ∃ r : ℝ, x = (r : EReal) := by
  change BitVec.ofBool (decide (max x (-x) < Ideal.ofBits .f32 0x7F800000#32)) = 1#1 at h
  rw [inf_bits, StableHlo.Predicate.ofBool_eq_one_iff, decide_eq_true_eq] at h
  exact real_of_abs_lt_top x h

/-- A signed word at least 0 and below 1024, as the two printed comparisons say it. -/
theorem range_of_cmp (w : BitVec 32) (h0 : IntOp.cmpi .sge w 0#32 = 1#1) (h1 : IntOp.cmpi .slt w 1024#32 = 1#1) :
    0 ≤ w.toInt ∧ w.toInt < 1024 := by
  unfold IntOp.cmpi at h0 h1
  rw [StableHlo.Predicate.ofBool_eq_one_iff] at h0 h1
  have e0 : (0#32 : BitVec 32).toInt = 0 := by decide
  have e1 : (1024#32 : BitVec 32).toInt = 1024 := by decide
  simp only [BitVec.sle, BitVec.slt, decide_eq_true_eq, e0, e1] at h0 h1
  exact ⟨h0, h1⟩

variable (a0 : S4x2048x2.Idx → BitVec 32) (a1 : S4x2048x2x64.Idx → EReal) (a2 a3 : S4x2048x128.Idx → EReal)
  (a4 : S1024x64x128.Idx → EReal)

/-- The precondition is a conjunction of six jnp.all; each gives its element test at every index. -/
theorem split (h : Cert.Pre_finite_inputs.fn (F := Ideal) a0 a1 a2 a3 a4 = fun _ => 1#1) :
    (∀ i, FloatOps.cmpf .olt (FloatOps.hostAbsf (a1 i)) (FloatOps.ofBits (F := Ideal) .f32 0x7F800000#32) = 1#1)
    ∧ (∀ i, FloatOps.cmpf .olt (FloatOps.hostAbsf (a2 i)) (FloatOps.ofBits (F := Ideal) .f32 0x7F800000#32) = 1#1)
    ∧ (∀ i, FloatOps.cmpf .olt (FloatOps.hostAbsf (a3 i)) (FloatOps.ofBits (F := Ideal) .f32 0x7F800000#32) = 1#1)
    ∧ (∀ i, FloatOps.cmpf .olt (FloatOps.hostAbsf (a4 i)) (FloatOps.ofBits (F := Ideal) .f32 0x7F800000#32) = 1#1)
    ∧ (∀ i, IntOp.cmpi .sge (a0 i) 0#32 = 1#1)
    ∧ (∀ i, IntOp.cmpi .slt (a0 i) 1024#32 = 1#1) := by
  have e := congrFun h ValueIdx.ix0
  dsimp only [Cert.Pre_finite_inputs.fn, Cert.Pre_finite_inputs.fn_part1] at e
  simp only [Idealize.ShloMosaic.andi, IntOp.andi_eq_one] at e
  obtain ⟨⟨⟨⟨⟨h1, h2⟩, h3⟩, h4⟩, h5⟩, h6⟩ := e
  exact ⟨fun i => Host.reduce_andi_all _ _ _ _ _ h1 i, fun i => Host.reduce_andi_all _ _ _ _ _ h2 i,
    fun i => Host.reduce_andi_all _ _ _ _ _ h3 i, fun i => Host.reduce_andi_all _ _ _ _ _ h4 i,
    fun i => Host.reduce_andi_all _ _ _ _ _ h5 i, fun i => Host.reduce_andi_all _ _ _ _ _ h6 i⟩

/-- Every key entry is a real number. -/
theorem real_arg1 (h : Cert.Pre_finite_inputs.fn (F := Ideal) a0 a1 a2 a3 a4 = fun _ => 1#1) (i : S4x2048x2x64.Idx) :
    ∃ r : ℝ, a1 i = (r : EReal) :=
  real_of_cmp (a1 i) ((split a0 a1 a2 a3 a4 h).1 i)

/-- Every value entry is a real number. -/
theorem real_arg2 (h : Cert.Pre_finite_inputs.fn (F := Ideal) a0 a1 a2 a3 a4 = fun _ => 1#1) (i : S4x2048x128.Idx) :
    ∃ r : ℝ, a2 i = (r : EReal) :=
  real_of_cmp (a2 i) ((split a0 a1 a2 a3 a4 h).2.1 i)

/-- Every query entry is a real number. -/
theorem real_arg3 (h : Cert.Pre_finite_inputs.fn (F := Ideal) a0 a1 a2 a3 a4 = fun _ => 1#1) (i : S4x2048x128.Idx) :
    ∃ r : ℝ, a3 i = (r : EReal) :=
  real_of_cmp (a3 i) ((split a0 a1 a2 a3 a4 h).2.2.1 i)

/-- Every state entry is a real number. -/
theorem real_arg4 (h : Cert.Pre_finite_inputs.fn (F := Ideal) a0 a1 a2 a3 a4 = fun _ => 1#1) (i : S1024x64x128.Idx) :
    ∃ r : ℝ, a4 i = (r : EReal) :=
  real_of_cmp (a4 i) ((split a0 a1 a2 a3 a4 h).2.2.2.1 i)

/-- Every partition number, read signed, lies in [0, 1024). -/
theorem range_arg0 (h : Cert.Pre_finite_inputs.fn (F := Ideal) a0 a1 a2 a3 a4 = fun _ => 1#1) (i : S4x2048x2.Idx) :
    0 ≤ (a0 i).toInt ∧ (a0 i).toInt < 1024 :=
  range_of_cmp (a0 i) ((split a0 a1 a2 a3 a4 h).2.2.2.2.1 i) ((split a0 a1 a2 a3 a4 h).2.2.2.2.2 i)

end Cert.PreFacts

end
-- ==== Proof.Bridge.lean ====
/-
  The two programs, run from the same inputs, return the same array.

  Under the precondition every float entry is a real number and every partition number lies in [0, 1024); name those
  reals and numbers, read the kernel's program's result as `Spec.outK` of them and the reference's as `Spec.outR` of
  them, and the two are one real function.
-/
import proofs.«430673_j89300960019113_2_alg».proof.Proof.KValue
import proofs.«430673_j89300960019113_2_alg».proof.Proof.RefValue
import proofs.«430673_j89300960019113_2_alg».proof.Proof.PreFacts
import proofs.«430673_j89300960019113_2_alg».proof.Proof.Spec

set_option maxRecDepth 16384

noncomputable section

open Idealize.ShloMosaic Idealize.ShloMosaic.TcCoe Idealize.SL.Sem Idealize.ShloMosaic.ValueIdx

namespace Cert.Proof.Bridge

open Cert.KernelIdeal Cert.KernelIdeal.Gen Cert.Spec

/-- A 32-bit word whose signed value lies in [0, 1024) is below 1024 as a natural number. -/
theorem toNat_lt_of_range (w : BitVec 32) (h0 : 0 ≤ w.toInt) (h1 : w.toInt < 1024) : w.toNat < 1024 := by
  have h := BitVec.toInt_eq_toNat_cond w
  have hlt := w.isLt
  split_ifs at h <;> omega

variable (m : (ℓ : Loc nD τ sig) → Buf (Elt Ideal) ℓ) (ρ : Dev nD → PrngReg) (c : Dev nD)

/-- Under the precondition the kernel's program's result array is the reference's function of the launch arrays. -/
theorem kernel_eq_ref
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (W7 m ρ c (Proc.devRef .tc main_v14) : S4x2048x128.Idx → EReal)
      = Cert.ReferenceIdeal.Read.val_main_v24 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  have hr0 := Cert.PreFacts.range_arg0 _ _ _ _ _ hpre
  choose f1 hf1 using Cert.PreFacts.real_arg1 _ _ _ _ _ hpre
  choose f2 hf2 using Cert.PreFacts.real_arg2 _ _ _ _ _ hpre
  choose f3 hf3 using Cert.PreFacts.real_arg3 _ _ _ _ _ hpre
  choose f4 hf4 using Cert.PreFacts.real_arg4 _ _ _ _ _ hpre
  let pi : Fin 8192 → Fin 2 → Fin 1024 := fun t k =>
    ⟨((m ((c : Thread nD τ).loc main_arg0) : S4x2048x2.Idx → BitVec 32) (ix3 (tb t) (ts t) k)).toNat,
      toNat_lt_of_range _ (hr0 _).1 (hr0 _).2⟩
  have h0 : ∀ t k, (m ((c : Thread nD τ).loc main_arg0) : S4x2048x2.Idx → BitVec 32) (ix3 (tb t) (ts t) k)
      = BitVec.ofNat 32 (pi t k).val := fun t k => by
    show _ = BitVec.ofNat 32 (BitVec.toNat _)
    rw [BitVec.ofNat_toNat, BitVec.setWidth_eq]
  funext i
  obtain ⟨b, s, d, rfl⟩ : ∃ (b : Fin 4) (s : Fin 2048) (d : Fin 128), i = ix3 b s d := ⟨i 0, i 1, i 2, eq_ix3 i⟩
  rw [Cert.KernelIdeal.KValue.kernel_value m ρ c pi (fun t k cc => f1 (ix4 (tb t) (ts t) k cc)) (fun t d => f2 (ix3 (tb t) (ts t) d))
      (fun t d => f3 (ix3 (tb t) (ts t) d)) (fun p cc d => f4 (ix3 p cc d)) h0 (fun t k cc => hf1 _) (fun t d => hf2 _) (fun t d => hf3 _)
      (fun p cc d => hf4 _) b s d,
    Cert.ReferenceIdeal.RefValue.ref_value _ _ _ _ _ pi (fun t k cc => f1 (ix4 (tb t) (ts t) k cc)) (fun t d => f2 (ix3 (tb t) (ts t) d))
      (fun t d => f3 (ix3 (tb t) (ts t) d)) (fun p cc d => f4 (ix3 p cc d)) h0 (fun t k cc => hf1 _) (fun t d => hf2 _) (fun t d => hf3 _)
      (fun p cc d => hf4 _) b s d,
    Cert.Spec.outK_eq_outR]

end Cert.Proof.Bridge

end
-- ==== Proof.lean ====
/-
  The certificate: a one-hot formulation of "scatter outer products into a table of states, average, read back" against
  its plain reference, over the extended reals.

  The kernel's program never forms the outer products `key ⊗ value`. It averages each key row first, spreads the
  averages over the 1024 partitions by equality tests against the partition numbers, contracts with the values on the
  matrix unit block by block (two cores, four blocks each, accumulated in the output block), adds the two cores' partial
  tables to the average of the old states, and reads the table back through a matrix of hit counts. The reference
  scatter-adds the outer products into the states, averages over the key positions and gathers the two rows each token
  names. An equality test never matches a partition number outside [0, 1024), while the reference's gather clamps such a
  number to a row of the table: the two programs agree where every partition number is in range, which the precondition
  states beside the finiteness of the float inputs. There both results are one real function of the inputs
  (Proof/Spec.lean): averaging commutes with the sum over the tokens that hit a partition, the eight blocks partition
  the tokens, and a count-weighted sum over the partitions picks the rows a token names.

  The frames of the two kernel programs are the generated ones; the reference's frame is its generated run with the
  result dropped; the idealization rewrote nothing. For the equivalence the kernel's program is run once more with its
  result buffer named at the last boundary's contents (Proof/KRun.lean), those contents are read stage by stage
  (Proof/KHost.lean, KReg0.lean, KReg1.lean, KReg2.lean, KValue.lean), the reference's term likewise (Proof/RefValue.lean),
  and Proof/Bridge.lean joins them under the precondition's facts (Proof/PreFacts.lean).
-/
import proofs.«430673_j89300960019113_2_alg».proof.Defs
import proofs.«430673_j89300960019113_2_alg».proof.Proof.Gen.Kernel
import proofs.«430673_j89300960019113_2_alg».proof.Proof.Gen.Kernel.Skeleton
import proofs.«430673_j89300960019113_2_alg».proof.Proof.Gen.Kernel.Launch
import proofs.«430673_j89300960019113_2_alg».proof.Proof.Gen.Kernel.Points
import proofs.«430673_j89300960019113_2_alg».proof.Proof.Gen.Kernel.Frame
import proofs.«430673_j89300960019113_2_alg».proof.Proof.Gen.KernelIdeal
import proofs.«430673_j89300960019113_2_alg».proof.Proof.Gen.KernelIdeal.Skeleton
import proofs.«430673_j89300960019113_2_alg».proof.Proof.Gen.KernelIdeal.Launch
import proofs.«430673_j89300960019113_2_alg».proof.Proof.Gen.KernelIdeal.Points
import proofs.«430673_j89300960019113_2_alg».proof.Proof.Gen.KernelIdeal.Frame
import proofs.«430673_j89300960019113_2_alg».proof.Proof.Gen.ReferenceIdeal
import proofs.«430673_j89300960019113_2_alg».proof.Proof.Gen.ReferenceIdeal.Run
import proofs.«430673_j89300960019113_2_alg».proof.Proof.Gen.ReferenceIdeal.Read
import proofs.«430673_j89300960019113_2_alg».proof.Proof.Gen.Pre_finite_inputs
import proofs.«430673_j89300960019113_2_alg».proof.Proof.KRun
import proofs.«430673_j89300960019113_2_alg».proof.Proof.Bridge
import Idealize.ShloMosaic.Adequacy
import Idealize.ShloMosaic.Init

noncomputable section

namespace Cert.Proof

open Idealize.ShloMosaic Idealize.SL.Sem

/-- The kernel's program runs and leaves its arguments as launched: the generated frame. -/
theorem frame_k : Cert.frame_Kernel := fun m ρ _ => Cert.Kernel.Gen.frame m ρ

/-- Its idealization likewise. -/
theorem frame_ki : Cert.frame_KernelIdeal := fun m ρ _ => Cert.KernelIdeal.Gen.frame m ρ

/-- The reference runs and leaves its arguments as launched: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, under the precondition, both programs end with the same result: the
    kernel's program at the last boundary's contents of its result buffer, the reference at its composed term, and the two
    are one function of the arguments (`Bridge.kernel_eq_ref`). -/
theorem algebraic : Cert.algebraic_KernelIdeal_ReferenceIdeal := by
  intro m ρ m' ρ' hpre hagree
  refine ⟨fun c => Cert.KernelIdeal.Gen.W7 m ρ c (Proc.devRef .tc Cert.KernelIdeal.main_v14),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v24_eq _ _ _ _ _).trans ?_
  rw [(hagree c).1, (hagree c).2.1, (hagree c).2.2.1, (hagree c).2.2.2.1, (hagree c).2.2.2.2]
  exact (Cert.Proof.Bridge.kernel_eq_ref m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
